-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096 : Shape := ⟨1, ![4096]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) (main_arg1 : FVec F S16384x256 .f32) (main_arg2 : IVec S4096 32) (main_arg3 : IVec S4096 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S16384x256 : Shape := ⟨2, ![16384, 256]⟩
abbrev S4096 : Shape := ⟨1, ![4096]⟩
abbrev S_ : Shape := ⟨0, ![]⟩
abbrev S4096x1 : Shape := ⟨2, ![4096, 1]⟩
abbrev S4096x256 : Shape := ⟨2, ![4096, 256]⟩
abbrev S8192x256 : Shape := ⟨2, ![8192, 256]⟩
abbrev S8192x1 : Shape := ⟨2, ![8192, 1]⟩
abbrev S512x256 : Shape := ⟨2, ![512, 256]⟩
abbrev S512x1 : Shape := ⟨2, ![512, 1]⟩
abbrev S2048x256 : Shape := ⟨2, ![2048, 256]⟩
abbrev S512x2048 : Shape := ⟨2, ![512, 2048]⟩
abbrev S512 : Shape := ⟨1, ![512]⟩
abbrev S8192 : Shape := ⟨1, ![8192]⟩

abbrev nBuf : Space → Nat
  | .hbm => 56
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x256, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x256, .f32⟩
  | .hbm, ⟨22, _⟩ => ⟨S8192x256, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x256, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x256, .f32⟩
  | .hbm, ⟨41, _⟩ => ⟨S8192x256, .f32⟩
  | .hbm, ⟨42, _⟩ => ⟨S8192x256, .bf16⟩
  | .hbm, ⟨43, _⟩ => ⟨S8192x256, .bf16⟩
  | .hbm, ⟨44, _⟩ => ⟨S8192x1, .f32⟩
  | .hbm, ⟨45, _⟩ => ⟨S8192x1, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x256_S4096x256_S8192x256_d0 : Shape.Concatenates [S4096x256, S4096x256] S8192x256 0
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S2048x256 : 0 < S2048x256.numel
  shapeCasts_S2048x256_S2048x256 : S2048x256.ShapeCasts S2048x256
  reduces_S512x2048_S512 : S512x2048.Reduces [1] S512
  shapeCasts_S512_S512x1 : S512.ShapeCasts S512x1
  shapeCasts_S8192x1_S8192 : S8192x1.ShapeCasts S8192
  reducesTo_S8192_S_d0 : S8192.ReducesTo [0] S_
  h_S_ : 0 < S_.numel
  gather_S16384x256_S4096x1_S4096x256_1_0_n_n_0_1_1256_wf : GatherDims.WF S16384x256 S4096x1 S4096x256 [1] [0] [] [0] [] 1 ![1, 256]
  dot_S512x256_S2048x256_S512x2048_1_1_0_0_n_n_wf : DotDims.WF S512x256 S2048x256 S512x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def gather_S16384x256_S4096x1_S4096x256_1_0_n_n_0_1_1256 : GatherDims S16384x256 S4096x1 S4096x256 where
  offsetDims := [1]
  collapsedSliceDims := [0]
  operandBatchingDims := []
  startIndicesBatchingDims := []
  startIndexMap := [0]
  indexVectorDim := 1
  sliceSizes := ![1, 256]
  wf := gather_S16384x256_S4096x1_S4096x256_1_0_n_n_0_1_1256_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v30) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x256 : Shape := ⟨2, ![16384, 256]⟩
abbrev S4096 : Shape := ⟨1, ![4096]⟩
abbrev S_ : Shape := ⟨0, ![]⟩
abbrev S4096x1 : Shape := ⟨2, ![4096, 1]⟩
abbrev S4096x256 : Shape := ⟨2, ![4096, 256]⟩
abbrev S8192x256 : Shape := ⟨2, ![8192, 256]⟩
abbrev S8192x8192 : Shape := ⟨2, ![8192, 8192]⟩
abbrev S8192 : Shape := ⟨1, ![8192]⟩

abbrev nBuf : Space → Nat
  | .hbm => 64
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x256, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x256, .f32⟩
  | .hbm, ⟨22, _⟩ => ⟨S8192x256, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x256, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x256, .f32⟩
  | .hbm, ⟨41, _⟩ => ⟨S8192x256, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x256_S4096x256_S8192x256_d0 : Shape.Concatenates [S4096x256, S4096x256] S8192x256 0
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_
  gather_S16384x256_S4096x1_S4096x256_1_0_n_n_0_1_1256_wf : GatherDims.WF S16384x256 S4096x1 S4096x256 [1] [0] [] [0] [] 1 ![1, 256]
  dot_S8192x256_S8192x256_S8192x8192_1_1_0_0_n_n_wf : DotDims.WF S8192x256 S8192x256 S8192x8192 [1] [1] [0] [0] [] []

variable [Facts₀]

def gather_S16384x256_S4096x1_S4096x256_1_0_n_n_0_1_1256 : GatherDims S16384x256 S4096x1 S4096x256 where
  offsetDims := [1]
  collapsedSliceDims := [0]
  operandBatchingDims := []
  startIndicesBatchingDims := []
  startIndexMap := [0]
  indexVectorDim := 1
  sliceSizes := ![1, 256]
  wf := gather_S16384x256_S4096x1_S4096x256_1_0_n_n_0_1_1256_wf
def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Kernel.Sched.lean ====
/-
  The grid of the pairwise kernel: 64 points, point t = (i, j) with i = t / 4 the tile of 512 query rows and j = t % 4
  the tile of 2048 key rows.  The body resets its two running sums where j = 0 and hands them to the two outputs where
  j = 3; the outputs' blocks are written back exactly there.  Everything here is decided over the 64 points.
-/
import proofs.«421594_j68152541053488_3_alg».proof.Proof.Gen.Kernel.Launch
import proofs.«421594_j68152541053488_3_alg».proof.Proof.Gen.Kernel.Skeleton
import proofs.«421594_j68152541053488_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Pipeline.RegionsLoop
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch (the reset of the running sums) is taken: the key-tile coordinate is 0. -/
abbrev condReset (i : grid0.Coords) : Prop :=
  (Scalar.cmpi .ne (Scalar.extui (Scalar.cmpi .eq (BitVec.ofNat 32 (i 1).val) 0#32)) 0#32) = 1#1
/-- The body's last branch (the running sums go to the outputs) is taken: the key-tile coordinate is 3. -/
abbrev condLast (i : grid0.Coords) : Prop := k0_cond2 i = 1#1

theorem hreset : ∀ t : Fin cfg0.N, condReset (grid0.coords t) ↔ t.val % 4 = 0 :=
  (by decide +kernel : ∀ t : Fin grid0.N, condReset (grid0.coords t) ↔ t.val % 4 = 0)
theorem hlast : ∀ t : Fin cfg0.N, condLast (grid0.coords t) ↔ t.val % 4 = 3 :=
  (by decide +kernel : ∀ t : Fin grid0.N, condLast (grid0.coords t) ↔ t.val % 4 = 3)

/-- The three inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The two outputs are idle, and not written back, away from the last key tile; live there. -/
theorem idle3 : ∀ t : Fin cfg0.N, t.val % 4 ≠ 3 → cfg0.idle 3 (grid0.coords t) = true := by decide +kernel
theorem idle4 : ∀ t : Fin cfg0.N, t.val % 4 ≠ 3 → cfg0.idle 4 (grid0.coords t) = true := by decide +kernel
theorem live3 : ∀ t : Fin cfg0.N, t.val % 4 = 3 → cfg0.idle 3 (grid0.coords t) = false := by decide +kernel
theorem live4 : ∀ t : Fin cfg0.N, t.val % 4 = 3 → cfg0.idle 4 (grid0.coords t) = false := by decide +kernel
theorem noflush3 : ∀ t : Fin cfg0.N, t.val % 4 ≠ 3 → (cfg0.win 3).flush t = false := by decide +kernel
theorem noflush4 : ∀ t : Fin cfg0.N, t.val % 4 ≠ 3 → (cfg0.win 4).flush t = false := by decide +kernel

/-- The rectangles the body reads and writes: the whole query block, the whole column of running sums, and the 2048 key
    rows of the point's key tile. -/
abbrev rQ : Rect S512x256 := Rect.unit (s := S512x256) ![0, 0] S512x256.size inb_S512x256_S512x256_0_0
abbrev rA : Rect S512x1 := Rect.unit (s := S512x1) ![0, 0] S512x1.size inb_S512x1_S512x1_0_0
abbrev rK (i : grid0.Coords) : Rect S8192x256 := Rect.unit (s := S8192x256) (k0_off1 i) S2048x256.size (k0_off1_inb i)

/-- One step of the first running sum: the old sums plus the row sums of exp(20 · q kᵀ) over the key tile, as the
    body computes it from the query block, the resident keys and the old sums. -/
def stepP (i : grid0.Coords) (x0 : Vec F S512x256 .bf16) (kp : Vec F S8192x256 .bf16) (a : Vec F S512x1 .f32) : Vec F S512x1 .f32 :=
  k0_pay4 x0 (View.ld kp (rK i)) a
/-- The same for the second running sum, against the other keys. -/
def stepN (i : grid0.Coords) (x0 : Vec F S512x256 .bf16) (kn : Vec F S8192x256 .bf16) (a : Vec F S512x1 .f32) : Vec F S512x1 .f32 :=
  k0_pay5 x0 (View.ld kn (rK i)) a

/-- The scratch operands as memrefs. -/
abbrev scM0 : Memref sig .tc .vmem S512x1 .f32 := Memref.whole cc0_scratch0
abbrev scM1 : Memref sig .tc .vmem S512x1 .f32 := Memref.whole cc0_scratch1

end Cert.Kernel.Hand

end
-- ==== Proof.Kernel.Data.lean ====
/-
  The proof data of the pairwise kernel's pipeline.  After point t = (i, j) the first scratch column holds the sum,
  over the key tiles 0 … j, of the row sums of exp(20 · q_i k_{j'}ᵀ) against the first keys, and the second column the
  same against the second keys: one step of the body per point, started afresh at each j = 0.  The outputs' buffers take
  these columns at j = 3.  Each input's buffer holds its block (the query tile; the two key arrays whole) at every point.
-/
import proofs.«421594_j68152541053488_3_alg».proof.Proof.Kernel.Sched

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running sums after point `n`: a fresh step from the zero columns where the key tile is the first, else a
    step from what the point before left. -/
def accs (c : Dev nD) : (n : ℕ) → n < cfg0.N → Vec F S512x1 .f32 × Vec F S512x1 .f32
  | 0, hn => (stepP (grid0.coords ⟨0, hn⟩) (iblk V c 0 ⟨0, hn⟩) (iblk V c 1 ⟨0, hn⟩) k0_pay1,
              stepN (grid0.coords ⟨0, hn⟩) (iblk V c 0 ⟨0, hn⟩) (iblk V c 2 ⟨0, hn⟩) k0_pay2)
  | n + 1, hn =>
    if (n + 1) % 4 = 0 then
      (stepP (grid0.coords ⟨n + 1, hn⟩) (iblk V c 0 ⟨n + 1, hn⟩) (iblk V c 1 ⟨n + 1, hn⟩) k0_pay1,
       stepN (grid0.coords ⟨n + 1, hn⟩) (iblk V c 0 ⟨n + 1, hn⟩) (iblk V c 2 ⟨n + 1, hn⟩) k0_pay2)
    else
      (stepP (grid0.coords ⟨n + 1, hn⟩) (iblk V c 0 ⟨n + 1, hn⟩) (iblk V c 1 ⟨n + 1, hn⟩) (accs c n (Nat.lt_of_succ_lt hn)).1,
       stepN (grid0.coords ⟨n + 1, hn⟩) (iblk V c 0 ⟨n + 1, hn⟩) (iblk V c 2 ⟨n + 1, hn⟩) (accs c n (Nat.lt_of_succ_lt hn)).2)

theorem accs_reset (c : Dev nD) (t : Fin cfg0.N) (h : t.val % 4 = 0) :
    accs V c t.val t.isLt = (stepP (grid0.coords t) (iblk V c 0 t) (iblk V c 1 t) k0_pay1, stepN (grid0.coords t) (iblk V c 0 t) (iblk V c 2 t) k0_pay2) := by
  obtain ⟨n, hn⟩ := t
  cases n with
  | zero => rfl
  | succ n => exact if_pos h

theorem accs_step (c : Dev nD) (t : Fin cfg0.N) (h : t.val % 4 ≠ 0) :
    accs V c t.val t.isLt = (stepP (grid0.coords t) (iblk V c 0 t) (iblk V c 1 t) (accs V c (t.val - 1) (Nat.lt_of_le_of_lt (Nat.sub_le _ _) t.isLt)).1,
      stepN (grid0.coords t) (iblk V c 0 t) (iblk V c 2 t) (accs V c (t.val - 1) (Nat.lt_of_le_of_lt (Nat.sub_le _ _) t.isLt)).2) := by
  obtain ⟨n, hn⟩ := t
  cases n with
  | zero => exact absurd (Nat.zero_mod _) h
  | succ n => exact if_neg h

/-- The class invariant with the two scratch columns as memrefs owned at some contents. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region invariant before position `n`: before the first point the class's (the scratch columns at anything);
    afterwards the two scratch columns at the running sums the point before left, and the generator register. -/
def PhiS (c : Dev nD) : (n : ℕ) → n ≤ cfg0.N → sProp 𝕄
  | 0, _ => Pipeline.ΦA spec0 c
  | n + 1, hn => iprop((owns (c : Thread nD τ) scM0 fullShare (accs V c n hn).1 ∗ owns (c : Thread nD τ) scM1 fullShare (accs V c n hn).2) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (accs V c n hn).1 ∗ owns (c : Thread nD τ) scM1 fullShare (accs V c n hn).2) ∗ (∃ r, prngReg c r)) := rfl

theorem PhiS_pos (c : Dev nD) (n : ℕ) (h : n ≤ cfg0.N) (hz : n ≠ 0) :
    PhiS V c n h = iprop((owns (c : Thread nD τ) scM0 fullShare (accs V c (n - 1) (by omega)).1 ∗ owns (c : Thread nD τ) scM1 fullShare (accs V c (n - 1) (by omega)).2) ∗ (∃ r, prngReg c r)) := by
  cases n with
  | zero => exact absurd rfl hz
  | succ n => rfl

/-- The proof data: the arrays as the region finds them; after the body each input's buffer at its block, the outputs'
    at the running sums; the query tile and the first keys share one array, half each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (accs V c t.val t.isLt).1
    | ⟨4, _⟩ => (accs V c t.val t.isLt).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (accs V c t.val t.isLt).1 := by dsimp only [dat0]
theorem after_4 (c : Dev nD) (t : Fin cfg0.N) : (dat0 V c).after 4 t = (accs V c t.val t.isLt).2 := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

end Cert.Kernel.Hand

end
-- ==== Proof.Kernel.Vals.lean ====
/-
  The buffer contents at the three boundaries of the program: at launch, after the host operations that gather and
  stack the rows (the region's entry), at the region's exit (the two outputs at what the pipeline's write-backs leave,
  every other buffer as entered), and after the host operations that turn the two columns of sums into the loss.
-/
import proofs.«421594_j68152541053488_3_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- At the region's exit: the two outputs at what the write-backs leave, every other buffer as entered. -/
def W2 (c : Dev nD) : Valuation τ sig (Elt F) :=
  Function.update (Function.update (W1 m ρ c) (Proc.devRef .tc main_v32_0) ((dat0 (V1 m ρ) c).arrAt 3 cfg0.N))
    (Proc.devRef .tc main_v32_1) ((dat0 (V1 m ρ) c).arrAt 4 cfg0.N)
/-- After the host operations after the region. -/
abbrev W3 : Dev nD → Valuation τ sig (Elt F) := fun c => StableHlo.after hostOps1 (W2 m ρ c)

theorem W2_out0 (c : Dev nD) : W2 m ρ c (Proc.devRef .tc main_v32_0) = (dat0 (V1 m ρ) c).arrAt 3 cfg0.N := by
  unfold W2
  rw [Function.update_of_ne (StableHlo.devRef_ne_of_ne (by decide)), Function.update_self]
theorem W2_out1 (c : Dev nD) : W2 m ρ c (Proc.devRef .tc main_v32_1) = (dat0 (V1 m ρ) c).arrAt 4 cfg0.N := by
  unfold W2
  rw [Function.update_self]
theorem W2_of_ne (c : Dev nD) (b : Ref sig .tc) (h0 : b ≠ main_v32_0) (h1 : b ≠ main_v32_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

end Cert.Kernel.Hand

end
-- ==== Proof.Kernel.RunA.lean ====
/-
  The body at the first key tile (and not the last): both running sums are zeroed, then take one step; the outputs'
  buffers are not touched.
-/
import proofs.«421594_j68152541053488_3_alg».proof.Proof.Kernel.Sched
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_A (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : condReset i) (hc1 : ¬condLast i)
    (x0 : Vec F S512x256 .bf16) (kp kn : Vec F S8192x256 .bf16) (y5 y6 : Vec F S512x1 .f32) (E : Set ℕ) (K : PUnit → sProp 𝕄) :
    iprop(owns (c : Thread nD τ) arg2 fullShare x0 ∗ owns (c : Thread nD τ) arg3 fullShare kp ∗ owns (c : Thread nD τ) arg4 fullShare kn
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare kp ∗ owns (c : Thread nD τ) arg4 fullShare kn
            ∗ owns (c : Thread nD τ) arg5 fullShare y5 ∗ owns (c : Thread nD τ) arg6 fullShare y6
            ∗ owns (c : Thread nD τ) arg7 fullShare (stepP i x0 kp k0_pay1) ∗ owns (c : Thread nD τ) arg8 fullShare (stepN i x0 kn k0_pay2)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  have hzA : (![0, 0] : Fin S512x1.rank → ℕ) = fun _ => 0 := by funext a; fin_cases a <;> rfl
  have hzQ : (![0, 0] : Fin S512x256.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    rw [View.read_writes_eq_canon _ _ _ (View.cover_of_tiledL _ S512x1.size (by sl_kernel_rfl))]
    rw [View.canon_cons_unit_zero (S := S512x1) hzA]
    simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
    rfl
  iexists _; isplitr
  swap; · iexact H8
  ipureintro
  sl_unfold_run_names
  rw [View.read_writes_eq_canon _ _ _ (View.cover_of_tiledL _ S512x1.size (by sl_kernel_rfl))]
  rw [View.canon_cons_unit_zero (S := S512x1) hzA]
  simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
  rfl

end Cert.Kernel.Hand

end
-- ==== Proof.Kernel.RunB.lean ====
/-
  The body away from the first and the last key tile: both running sums take one step, the outputs' buffers are not touched.
-/
import proofs.«421594_j68152541053488_3_alg».proof.Proof.Kernel.Sched

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_B (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬condReset i) (hc1 : ¬condLast i)
    (x0 : Vec F S512x256 .bf16) (kp kn : Vec F S8192x256 .bf16) (y5 y6 a7 a8 : Vec F S512x1 .f32) (E : Set ℕ) (K : PUnit → sProp 𝕄) :
    iprop(owns (c : Thread nD τ) arg2 fullShare x0 ∗ owns (c : Thread nD τ) arg3 fullShare kp ∗ owns (c : Thread nD τ) arg4 fullShare kn
        ∗ owns (c : Thread nD τ) arg5 fullShare y5 ∗ owns (c : Thread nD τ) arg6 fullShare y6
        ∗ owns (c : Thread nD τ) arg7 fullShare a7 ∗ owns (c : Thread nD τ) arg8 fullShare a8
        ∗ (iprop(owns (c : Thread nD τ) arg2 fullShare x0 ∗ owns (c : Thread nD τ) arg3 fullShare kp ∗ owns (c : Thread nD τ) arg4 fullShare kn
            ∗ owns (c : Thread nD τ) arg5 fullShare y5 ∗ owns (c : Thread nD τ) arg6 fullShare y6
            ∗ owns (c : Thread nD τ) arg7 fullShare (stepP i x0 kp a7) ∗ owns (c : Thread nD τ) arg8 fullShare (stepN i x0 kn a8)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6
  obtain rfl := harg7.eq_unread hf7; obtain rfl := harg8.eq_unread hf8
  sl_exec (disch := first | exact hc0 | exact hc1)
  sl_step
  iapply Hk
  have hzA : (![0, 0] : Fin S512x1.rank → ℕ) = fun _ => 0 := by funext a; fin_cases a <;> rfl
  have hzQ : (![0, 0] : Fin S512x256.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (View.cover_of_tiled _ S512x1.size (by rfl)), View.canon_unit_zero hzA]
    simp only [View.readAt_eq_ld, harg2.read_unread, harg3.read_unread, harg7.read_unread, View.ld_unit_zero (S := S512x256) hzQ, View.ld_unit_zero (S := S512x1) hzA]
    rfl
  iexists _; isplitr
  swap; · iexact H8
  ipureintro
  rw [View.read_writes_eq_canon _ _ _ (View.cover_of_tiled _ S512x1.size (by rfl))]
  sl_unfold_run_names
  rw [View.canon_unit_zero hzA]
  simp only [View.readAt_eq_ld, harg2.read_unread, harg4.read_unread, harg8.read_unread, View.ld_unit_zero (S := S512x256) hzQ, View.ld_unit_zero (S := S512x1) hzA]
  rfl

end Cert.Kernel.Hand

end
-- ==== Proof.Kernel.RunC.lean ====
/-
  The body at the last key tile: both running sums take their last step and are copied to the two outputs' buffers.
-/
import proofs.«421594_j68152541053488_3_alg».proof.Proof.Kernel.Sched

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_C (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬condReset i) (hc1 : condLast i)
    (x0 : Vec F S512x256 .bf16) (kp kn : Vec F S8192x256 .bf16) (a7 a8 : Vec F S512x1 .f32) (E : Set ℕ) (K : PUnit → sProp 𝕄) :
    iprop(owns (c : Thread nD τ) arg2 fullShare x0 ∗ owns (c : Thread nD τ) arg3 fullShare kp ∗ owns (c : Thread nD τ) arg4 fullShare kn
        ∗ (∃ d, owns (c : Thread nD τ) arg5 fullShare d) ∗ (∃ d, owns (c : Thread nD τ) arg6 fullShare d)
        ∗ owns (c : Thread nD τ) arg7 fullShare a7 ∗ owns (c : Thread nD τ) arg8 fullShare a8
        ∗ (iprop(owns (c : Thread nD τ) arg2 fullShare x0 ∗ owns (c : Thread nD τ) arg3 fullShare kp ∗ owns (c : Thread nD τ) arg4 fullShare kn
            ∗ owns (c : Thread nD τ) arg5 fullShare (stepP i x0 kp a7) ∗ owns (c : Thread nD τ) arg6 fullShare (stepN i x0 kn a8)
            ∗ owns (c : Thread nD τ) arg7 fullShare (stepP i x0 kp a7) ∗ owns (c : Thread nD τ) arg8 fullShare (stepN i x0 kn a8)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  have hzA : (![0, 0] : Fin S512x1.rank → ℕ) = fun _ => 0 := by funext a; fin_cases a <;> rfl
  have hzQ : (![0, 0] : Fin S512x256.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (View.cover_of_tiled _ S512x1.size (by rfl))]
    sl_unfold_run_names
    rw [View.canon_unit_zero hzA]
    simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
    rfl
  isplitl [H6]
  · iexists _; isplitr
    swap; · iexact H6
    ipureintro
    rw [View.read_writes_eq_canon _ _ _ (View.cover_of_tiled _ S512x1.size (by rfl))]
    sl_unfold_run_names
    rw [View.canon_unit_zero hzA]
    simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
    rfl
  isplitl [H7]
  · iexists _; isplitr
    swap; · iexact H7
    ipureintro
    rw [View.read_writes_eq_canon _ _ _ (View.cover_of_tiled _ S512x1.size (by rfl))]
    sl_unfold_run_names
    rw [View.canon_unit_zero hzA]
    simp only [View.readAt_eq_ld, harg2.read_unread, harg3.read_unread, harg4.read_unread, harg7.read_unread, harg8.read_unread, View.ld_unit_zero (S := S512x256) hzQ, View.ld_unit_zero (S := S512x1) hzA]
    rfl
  iexists _; isplitr
  swap; · iexact H8
  ipureintro
  rw [View.read_writes_eq_canon _ _ _ (View.cover_of_tiled _ S512x1.size (by rfl))]
  sl_unfold_run_names
  rw [View.canon_unit_zero hzA]
  simp only [View.readAt_eq_ld, harg2.read_unread, harg3.read_unread, harg4.read_unread, harg7.read_unread, harg8.read_unread, View.ld_unit_zero (S := S512x256) hzQ, View.ld_unit_zero (S := S512x1) hzA]
  rfl

end Cert.Kernel.Hand

end
-- ==== Proof.Kernel.Oblig.lean ====
/-
  The body obligation of the pairwise kernel's pipeline: at every point the body, handed the query tile, the two key
  arrays and the running sums the point before left, leaves the running sums one step further; where the key tile is
  the first it starts them afresh, where it is the last it also fills the two outputs' buffers with them; elsewhere the
  outputs' buffers are handed back as found.
-/
import proofs.«421594_j68152541053488_3_alg».proof.Proof.Kernel.Data
import proofs.«421594_j68152541053488_3_alg».proof.Proof.Kernel.RunA
import proofs.«421594_j68152541053488_3_alg».proof.Proof.Kernel.RunB
import proofs.«421594_j68152541053488_3_alg».proof.Proof.Kernel.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms0 (t : Fin cfg0.N) : Memref sig .tc .vmem S512x256 .bf16 := win0_0.stage (cfg0.slots t 0)
abbrev ms1 (t : Fin cfg0.N) : Memref sig .tc .vmem S8192x256 .bf16 := win0_1.stage (cfg0.slots t 1)
abbrev ms2 (t : Fin cfg0.N) : Memref sig .tc .vmem S8192x256 .bf16 := win0_2.stage (cfg0.slots t 2)
abbrev ms3 (t : Fin cfg0.N) : Memref sig .tc .vmem S512x1 .f32 := win0_3.stage (cfg0.slots t 3)
abbrev ms4 (t : Fin cfg0.N) : Memref sig .tc .vmem S512x1 .f32 := win0_4.stage (cfg0.slots t 4)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0 t) fullShare ((dat0 V c).after 0 t) from by
      unfold Dat.leavesExact; rw [live0 t], after_0]
  rw [show (dat0 V c).leavesExact 1 t = owns (c : Thread nD τ) (ms1 t) fullShare ((dat0 V c).after 1 t) from by
      unfold Dat.leavesExact; rw [live1 t], after_1]
  rw [show (dat0 V c).leavesExact 2 t = owns (c : Thread nD τ) (ms2 t) fullShare ((dat0 V c).after 2 t) from by
      unfold Dat.leavesExact; rw [live2 t], after_2]
  by_cases h0 : t.val % 4 = 0
  · have h1 : t.val % 4 ≠ 3 := by omega
    rw [Dat.leavesExact_idle (dat0 V c) 3 t (idle3 t h1) (noflush3 t h1), Dat.leavesExact_idle (dat0 V c) 4 t (idle4 t h1) (noflush4 t h1)]
    rw [accs_reset V c t h0]
    by_cases hz : t.val = 0
    · rw [PhiS_castSucc V c t, PhiS_zero V c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ _ _ ((hreset t).mpr h0) (fun h => h1 ((hlast t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ _ _ ((hreset t).mpr h0) (fun h => h1 ((hlast t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [accs_step V c t h0, PhiS_castSucc V c t, PhiS_pos V c _ _ hz]
    by_cases h1 : t.val % 4 = 3
    · rw [show (dat0 V c).leavesExact 3 t = owns (c : Thread nD τ) (ms3 t) fullShare ((dat0 V c).after 3 t) from by
        unfold Dat.leavesExact; rw [live3 t h1], after_3, accs_step V c t h0]
      rw [show (dat0 V c).leavesExact 4 t = owns (c : Thread nD τ) (ms4 t) fullShare ((dat0 V c).after 4 t) from by
        unfold Dat.leavesExact; rw [live4 t h1], after_4, accs_step V c t h0]
      iintro ⟨⟨⟨HS0, HS1⟩, Hg⟩, Ho, ⟨%d0, H0⟩, ⟨%d1, H1⟩, ⟨%d2, H2⟩, ⟨%d3, H3⟩, ⟨%d4, H4⟩⟩
      iapply (run_C c (grid0.coords t) _ _ _ _ _ _ _ _ _ _ _ _ _ _ (fun h => h0 ((hreset t).mp h)) ((hlast t).mpr h1) (iblk V c 0 t) (iblk V c 1 t) (iblk V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 3 t (idle3 t h1) (noflush3 t h1), Dat.leavesExact_idle (dat0 V c) 4 t (idle4 t h1) (noflush4 t h1)]
      iintro ⟨⟨⟨HS0, HS1⟩, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ _ _ (fun h => h0 ((hreset t).mp h)) (fun h => h1 ((hlast t).mp h)) (iblk V c 0 t) (iblk V c 1 t) (iblk V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the running sums' names are forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS0, HS1⟩, Hg⟩
  isplitl [HS0 HS1]
  · isplitl [HS0]; · iexists _; iexact HS0
    iexists _; iexact HS1
  iexact Hg

end Cert.Kernel.Hand

end
-- ==== Proof.Kernel.Run.lean ====
/-
  The run of the whole program on the TensorCore: the host operations that gather and stack the rows, the pairwise
  kernel's region, the host operations that turn the two columns of row sums into the loss.  The query tiles and the
  first resident key array are two windows on ONE array, which the region therefore holds in two halves: the array is
  split in two at the region's entry and put together again at its exit.  Every weakly fair execution terminates, and
  every unscoped buffer ends holding what the three stretches compose to.
-/
import proofs.«421594_j68152541053488_3_alg».proof.Proof.Kernel.Vals
import proofs.«421594_j68152541053488_3_alg».proof.Proof.Kernel.Oblig
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide) (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide) (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The region's arrays, window by window, and the buffers behind them -/

section Arrays
variable (V : (c : Dev nD) → (b : Ref sig .tc) → Buf (Elt F) ((c : Thread nD τ).loc b))

/-- One window's array: a whole buffer, at the window's share. -/
theorem arr_leaf (c : Dev nD) (w : Fin cfg0.W) (q : PosShare TreeShare) (h : (dat0 V c).share w = q)
    (g : Buf (Elt F) ((cfg0.win w).arr.view.loc (c : Thread nD τ))) :
    (((cfg0.win w).arr.view.loc (c : Thread nD τ)) ↦[(cfg0.win w).arr.view.set]{(dat0 V c).share w} g : sProp 𝕄)
      = (((cfg0.win w).arr.view.loc (c : Thread nD τ)) ↦{q} g) := by
  rw [(arr_whole0 w).set_eq_univ, h]

/-- The five windows' arrays at the shares the proof data names: the shared array in its two halves. -/
theorem arrays_eq5 (c : Dev nD) (G : (w : Fin cfg0.W) → Buf (Elt F) ((cfg0.win w).arr.view.loc (c : Thread nD τ))) :
    ((dat0 V c).arrays G : sProp 𝕄) = iprop(
      (((c : Thread nD τ).loc main_v30) ↦{fullShare.left} G 0) ∗ (((c : Thread nD τ).loc main_v30) ↦{fullShare.right} G 1) ∗
      (((c : Thread nD τ).loc main_v31) ↦{fullShare} G 2) ∗ (((c : Thread nD τ).loc main_v32_0) ↦{fullShare} G 3) ∗ (((c : Thread nD τ).loc main_v32_1) ↦{fullShare} G 4)) := by
  unfold Dat.arrays
  rw [bigSep_W0]
  exact congrArg₂ _ (arr_leaf V c 0 _ rfl _) (congrArg₂ _ (arr_leaf V c 1 _ rfl _) (congrArg₂ _ (arr_leaf V c 2 _ rfl _)
    (congrArg₂ _ (arr_leaf V c 3 _ rfl _) (arr_leaf V c 4 _ rfl _))))

/-- The four distinct buffers behind the five windows. -/
theorem arrBufs_eq4 (c : Dev nD) (X : (b : Ref sig .tc) → Buf (Elt F) ((c : Thread nD τ).loc b)) :
    (Pipeline.arrBufs (Ix := Unit) (Name := ℕ) (U := UR sig nD τ) (Lvl := ℕ) spec0 c X : sProp 𝕄) = iprop(
      (((c : Thread nD τ).loc main_v30) ↦{fullShare} X main_v30) ∗ (((c : Thread nD τ).loc main_v31) ↦{fullShare} X main_v31) ∗
      (((c : Thread nD τ).loc main_v32_0) ↦{fullShare} X main_v32_0) ∗ (((c : Thread nD τ).loc main_v32_1) ↦{fullShare} X main_v32_1)) := by
  unfold Pipeline.arrBufs
  rw [bigSep_eq_bigSepL_of_eq [main_v30, main_v31, main_v32_0, main_v32_1] (by decide) (by decide)]
  rfl

end Arrays

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
abbrev Tₙ (c : Dev nD) : sProp 𝕄 := iprop(StableHlo.held (c : Thread nD τ) (Pipeline.ucRefs τ sig) (W3 m ρ c) ∗ ∃ r, prngReg c r)

/-! ## The region's entry and exit -/

/-- ENTRY: every unscoped buffer at the entry contents is the five windows' arrays — the shared array split in two —
    and the buffers no window names. -/
theorem entry_split (c : Dev nD) :
    (StableHlo.held (c : Thread nD τ) (Pipeline.ucRefs τ sig) (W1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [← Pipeline.unscopedBufs_held c (W1 m ρ c), Pipeline.unscopedBufs_split₀ cfgs 0 winFacts₀0.arr_unscoped c (V1 m ρ c)]
  refine sep_mono ?_ .rfl
  rw [arrBufs_eq4, arrays_eq5]
  iintro ⟨H30, H31, H0, H1⟩
  ihave H30' := (pointsTo_share (PosShare.mem_left_op_right fullShare)).1 $$ H30
  icases H30' with ⟨Ha, Hb⟩
  isplitl [Ha]; · iexact Ha
  isplitl [Hb]; · iexact Hb
  isplitl [H31]; · iexact H31
  isplitl [H0]; · iexact H0
  iexact H1

/-- EXIT: the arrays at what the pipeline leaves — the two inputs' arrays as entered, the two halves of the shared one
    together again, the outputs at their write-backs — and the other buffers are every unscoped buffer at the exit contents. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c), Pipeline.unscopedBufs_split₀ cfgs 0 winFacts₀0.arr_unscoped c (fun b => W2 m ρ c b)]
  refine sep_mono ?_ (Entails.of_eq ?_)
  · rw [arrBufs_eq4, arrays_eq5]
    have e0 : (dat0 (V1 m ρ) c).arrAt 0 cfg0.N = W2 m ρ c (Proc.devRef .tc main_v30) :=
      (((dat0 (V1 m ρ) c).arrAt_in 0 rfl _).trans (A_eq (V1 m ρ) c 0)).trans (W2_of_ne m ρ c main_v30 (by decide) (by decide)).symm
    have e1 : (dat0 (V1 m ρ) c).arrAt 1 cfg0.N = W2 m ρ c (Proc.devRef .tc main_v30) :=
      (((dat0 (V1 m ρ) c).arrAt_in 1 rfl _).trans (A_eq (V1 m ρ) c 1)).trans (W2_of_ne m ρ c main_v30 (by decide) (by decide)).symm
    have e2 : (dat0 (V1 m ρ) c).arrAt 2 cfg0.N = W2 m ρ c (Proc.devRef .tc main_v31) :=
      (((dat0 (V1 m ρ) c).arrAt_in 2 rfl _).trans (A_eq (V1 m ρ) c 2)).trans (W2_of_ne m ρ c main_v31 (by decide) (by decide)).symm
    have e3 : (dat0 (V1 m ρ) c).arrAt 3 cfg0.N = W2 m ρ c (Proc.devRef .tc main_v32_0) := (W2_out0 m ρ c).symm
    have e4 : (dat0 (V1 m ρ) c).arrAt 4 cfg0.N = W2 m ρ c (Proc.devRef .tc main_v32_1) := (W2_out1 m ρ c).symm
    rw [e0, e1, e2, e3, e4]
    iintro ⟨Ha, Hb, H31, H0, H1⟩
    isplitl [Ha Hb]
    · iapply (pointsTo_share (PosShare.mem_left_op_right fullShare)).2
      isplitl [Ha]; · iexact Ha
      iexact Hb
    isplitl [H31]; · iexact H31
    isplitl [H0]; · iexact H0
    iexact H1
  · unfold Pipeline.unscopedRest
    exact bigSep_congr fun b hb => by
      have hb' := (Finset.mem_sdiff.mp hb).2
      exact congrArg (fun v => (((c : Thread nD τ).loc b) ↦{fullShare} v : sProp 𝕄))
        (W2_of_ne m ρ c b (fun e => hb' (e ▸ (by decide))) (fun e => hb' (e ▸ (by decide)))).symm

/-! ## The region as a segment -/

set_option backward.isDefEq.respectTransparency.types false in
/-- The region over the thread state: entered from every unscoped buffer at the entry contents, left with them at the
    exit contents; the generator register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none]
    have h := hout (V1 m ρ) c
    unfold Pipeline.ΦA at h
    rw [show (pdats m ρ 0 c).Φ (Fin.last _) = (dat0 (V1 m ρ) c).Φ (Fin.last cfg0.N) from rfl]
    iintro HP
    ihave H := h $$ HP
    icases H with ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every unscoped buffer ends at what the three stretches compose to. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

/-- The run with the result named: the loss buffer at the composed contents, the arguments as launched. -/
theorem run_result : θ_run defs (onTc (τ := τ) (main (F := F))) ⟨m, fun _ => 0, ρ⟩ (fun r => ∀ c : Dev nD,
      r.2.mem ((c.tc : Thread nD τ).loc main_v40) = W3 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v40 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.Kernel.Hand

end
-- ==== Proof.KernelIdeal.Sched.lean ====
/-
  The grid of the pairwise kernel: 64 points, point t = (i, j) with i = t / 4 the tile of 512 query rows and j = t % 4
  the tile of 2048 key rows.  The body resets its two running sums where j = 0 and hands them to the two outputs where
  j = 3; the outputs' blocks are written back exactly there.  Everything here is decided over the 64 points.
-/
import proofs.«421594_j68152541053488_3_alg».proof.Proof.Gen.KernelIdeal.Launch
import proofs.«421594_j68152541053488_3_alg».proof.Proof.Gen.KernelIdeal.Skeleton
import proofs.«421594_j68152541053488_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch (the reset of the running sums) is taken: the key-tile coordinate is 0. -/
abbrev condReset (i : grid0.Coords) : Prop :=
  (Scalar.cmpi .ne (Scalar.extui (Scalar.cmpi .eq (BitVec.ofNat 32 (i 1).val) 0#32)) 0#32) = 1#1
/-- The body's last branch (the running sums go to the outputs) is taken: the key-tile coordinate is 3. -/
abbrev condLast (i : grid0.Coords) : Prop := k0_cond2 i = 1#1

theorem hreset : ∀ t : Fin cfg0.N, condReset (grid0.coords t) ↔ t.val % 4 = 0 :=
  (by decide +kernel : ∀ t : Fin grid0.N, condReset (grid0.coords t) ↔ t.val % 4 = 0)
theorem hlast : ∀ t : Fin cfg0.N, condLast (grid0.coords t) ↔ t.val % 4 = 3 :=
  (by decide +kernel : ∀ t : Fin grid0.N, condLast (grid0.coords t) ↔ t.val % 4 = 3)

/-- The three inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The two outputs are idle, and not written back, away from the last key tile; live there. -/
theorem idle3 : ∀ t : Fin cfg0.N, t.val % 4 ≠ 3 → cfg0.idle 3 (grid0.coords t) = true := by decide +kernel
theorem idle4 : ∀ t : Fin cfg0.N, t.val % 4 ≠ 3 → cfg0.idle 4 (grid0.coords t) = true := by decide +kernel
theorem live3 : ∀ t : Fin cfg0.N, t.val % 4 = 3 → cfg0.idle 3 (grid0.coords t) = false := by decide +kernel
theorem live4 : ∀ t : Fin cfg0.N, t.val % 4 = 3 → cfg0.idle 4 (grid0.coords t) = false := by decide +kernel
theorem noflush3 : ∀ t : Fin cfg0.N, t.val % 4 ≠ 3 → (cfg0.win 3).flush t = false := by decide +kernel
theorem noflush4 : ∀ t : Fin cfg0.N, t.val % 4 ≠ 3 → (cfg0.win 4).flush t = false := by decide +kernel

/-- The rectangles the body reads and writes: the whole query block, the whole column of running sums, and the 2048 key
    rows of the point's key tile. -/
abbrev rQ : Rect S512x256 := Rect.unit (s := S512x256) ![0, 0] S512x256.size inb_S512x256_S512x256_0_0
abbrev rA : Rect S512x1 := Rect.unit (s := S512x1) ![0, 0] S512x1.size inb_S512x1_S512x1_0_0
abbrev rK (i : grid0.Coords) : Rect S8192x256 := Rect.unit (s := S8192x256) (k0_off1 i) S2048x256.size (k0_off1_inb i)

/-- One step of the first running sum: the old sums plus the row sums of exp(20 · q kᵀ) over the key tile, as the
    body computes it from the query block, the resident keys and the old sums. -/
def stepP (i : grid0.Coords) (x0 : Vec F S512x256 .bf16) (kp : Vec F S8192x256 .bf16) (a : Vec F S512x1 .f32) : Vec F S512x1 .f32 :=
  k0_pay4 x0 (View.ld kp (rK i)) a
/-- The same for the second running sum, against the other keys. -/
def stepN (i : grid0.Coords) (x0 : Vec F S512x256 .bf16) (kn : Vec F S8192x256 .bf16) (a : Vec F S512x1 .f32) : Vec F S512x1 .f32 :=
  k0_pay5 x0 (View.ld kn (rK i)) a

/-- The scratch operands as memrefs. -/
abbrev scM0 : Memref sig .tc .vmem S512x1 .f32 := Memref.whole cc0_scratch0
abbrev scM1 : Memref sig .tc .vmem S512x1 .f32 := Memref.whole cc0_scratch1

end Cert.KernelIdeal.Hand

end
-- ==== Proof.KernelIdeal.Data.lean ====
/-
  The proof data of the pairwise kernel's pipeline.  After point t = (i, j) the first scratch column holds the sum,
  over the key tiles 0 … j, of the row sums of exp(20 · q_i k_{j'}ᵀ) against the first keys, and the second column the
  same against the second keys: one step of the body per point, started afresh at each j = 0.  The outputs' buffers take
  these columns at j = 3.  Each input's buffer holds its block (the query tile; the two key arrays whole) at every point.
-/
import proofs.«421594_j68152541053488_3_alg».proof.Proof.KernelIdeal.Sched

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running sums after point `n`: a fresh step from the zero columns where the key tile is the first, else a
    step from what the point before left. -/
def accs (c : Dev nD) : (n : ℕ) → n < cfg0.N → Vec F S512x1 .f32 × Vec F S512x1 .f32
  | 0, hn => (stepP (grid0.coords ⟨0, hn⟩) (iblk V c 0 ⟨0, hn⟩) (iblk V c 1 ⟨0, hn⟩) k0_pay1,
              stepN (grid0.coords ⟨0, hn⟩) (iblk V c 0 ⟨0, hn⟩) (iblk V c 2 ⟨0, hn⟩) k0_pay2)
  | n + 1, hn =>
    if (n + 1) % 4 = 0 then
      (stepP (grid0.coords ⟨n + 1, hn⟩) (iblk V c 0 ⟨n + 1, hn⟩) (iblk V c 1 ⟨n + 1, hn⟩) k0_pay1,
       stepN (grid0.coords ⟨n + 1, hn⟩) (iblk V c 0 ⟨n + 1, hn⟩) (iblk V c 2 ⟨n + 1, hn⟩) k0_pay2)
    else
      (stepP (grid0.coords ⟨n + 1, hn⟩) (iblk V c 0 ⟨n + 1, hn⟩) (iblk V c 1 ⟨n + 1, hn⟩) (accs c n (Nat.lt_of_succ_lt hn)).1,
       stepN (grid0.coords ⟨n + 1, hn⟩) (iblk V c 0 ⟨n + 1, hn⟩) (iblk V c 2 ⟨n + 1, hn⟩) (accs c n (Nat.lt_of_succ_lt hn)).2)

theorem accs_reset (c : Dev nD) (t : Fin cfg0.N) (h : t.val % 4 = 0) :
    accs V c t.val t.isLt = (stepP (grid0.coords t) (iblk V c 0 t) (iblk V c 1 t) k0_pay1, stepN (grid0.coords t) (iblk V c 0 t) (iblk V c 2 t) k0_pay2) := by
  obtain ⟨n, hn⟩ := t
  cases n with
  | zero => rfl
  | succ n => exact if_pos h

theorem accs_step (c : Dev nD) (t : Fin cfg0.N) (h : t.val % 4 ≠ 0) :
    accs V c t.val t.isLt = (stepP (grid0.coords t) (iblk V c 0 t) (iblk V c 1 t) (accs V c (t.val - 1) (Nat.lt_of_le_of_lt (Nat.sub_le _ _) t.isLt)).1,
      stepN (grid0.coords t) (iblk V c 0 t) (iblk V c 2 t) (accs V c (t.val - 1) (Nat.lt_of_le_of_lt (Nat.sub_le _ _) t.isLt)).2) := by
  obtain ⟨n, hn⟩ := t
  cases n with
  | zero => exact absurd (Nat.zero_mod _) h
  | succ n => exact if_neg h

/-- The class invariant with the two scratch columns as memrefs owned at some contents. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region invariant before position `n`: before the first point the class's (the scratch columns at anything);
    afterwards the two scratch columns at the running sums the point before left, and the generator register. -/
def PhiS (c : Dev nD) : (n : ℕ) → n ≤ cfg0.N → sProp 𝕄
  | 0, _ => Pipeline.ΦA spec0 c
  | n + 1, hn => iprop((owns (c : Thread nD τ) scM0 fullShare (accs V c n hn).1 ∗ owns (c : Thread nD τ) scM1 fullShare (accs V c n hn).2) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (accs V c n hn).1 ∗ owns (c : Thread nD τ) scM1 fullShare (accs V c n hn).2) ∗ (∃ r, prngReg c r)) := rfl

theorem PhiS_pos (c : Dev nD) (n : ℕ) (h : n ≤ cfg0.N) (hz : n ≠ 0) :
    PhiS V c n h = iprop((owns (c : Thread nD τ) scM0 fullShare (accs V c (n - 1) (by omega)).1 ∗ owns (c : Thread nD τ) scM1 fullShare (accs V c (n - 1) (by omega)).2) ∗ (∃ r, prngReg c r)) := by
  cases n with
  | zero => exact absurd rfl hz
  | succ n => rfl

/-- The proof data: the arrays as the region finds them; after the body each input's buffer at its block, the outputs'
    at the running sums; the query tile and the first keys share one array, half each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (accs V c t.val t.isLt).1
    | ⟨4, _⟩ => (accs V c t.val t.isLt).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (accs V c t.val t.isLt).1 := by dsimp only [dat0]
theorem after_4 (c : Dev nD) (t : Fin cfg0.N) : (dat0 V c).after 4 t = (accs V c t.val t.isLt).2 := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

end Cert.KernelIdeal.Hand

end
-- ==== Proof.KernelIdeal.Vals.lean ====
/-
  The buffer contents at the three boundaries of the program: at launch, after the host operations that gather and
  stack the rows (the region's entry), at the region's exit (the two outputs at what the pipeline's write-backs leave,
  every other buffer as entered), and after the host operations that turn the two columns of sums into the loss.
-/
import proofs.«421594_j68152541053488_3_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- At the region's exit: the two outputs at what the write-backs leave, every other buffer as entered. -/
def W2 (c : Dev nD) : Valuation τ sig (Elt F) :=
  Function.update (Function.update (W1 m ρ c) (Proc.devRef .tc main_v32_0) ((dat0 (V1 m ρ) c).arrAt 3 cfg0.N))
    (Proc.devRef .tc main_v32_1) ((dat0 (V1 m ρ) c).arrAt 4 cfg0.N)
/-- After the host operations after the region. -/
abbrev W3 : Dev nD → Valuation τ sig (Elt F) := fun c => StableHlo.after hostOps1 (W2 m ρ c)

theorem W2_out0 (c : Dev nD) : W2 m ρ c (Proc.devRef .tc main_v32_0) = (dat0 (V1 m ρ) c).arrAt 3 cfg0.N := by
  unfold W2
  rw [Function.update_of_ne (StableHlo.devRef_ne_of_ne (by decide)), Function.update_self]
theorem W2_out1 (c : Dev nD) : W2 m ρ c (Proc.devRef .tc main_v32_1) = (dat0 (V1 m ρ) c).arrAt 4 cfg0.N := by
  unfold W2
  rw [Function.update_self]
theorem W2_of_ne (c : Dev nD) (b : Ref sig .tc) (h0 : b ≠ main_v32_0) (h1 : b ≠ main_v32_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

end Cert.KernelIdeal.Hand

end
-- ==== Proof.KernelIdeal.RunA.lean ====
/-
  The body at the first key tile (and not the last): both running sums are zeroed, then take one step; the outputs'
  buffers are not touched.
-/
import proofs.«421594_j68152541053488_3_alg».proof.Proof.KernelIdeal.Sched
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run_A (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : condReset i) (hc1 : ¬condLast i)
    (x0 : Vec F S512x256 .bf16) (kp kn : Vec F S8192x256 .bf16) (y5 y6 : Vec F S512x1 .f32) (E : Set ℕ) (K : PUnit → sProp 𝕄) :
    iprop(owns (c : Thread nD τ) arg2 fullShare x0 ∗ owns (c : Thread nD τ) arg3 fullShare kp ∗ owns (c : Thread nD τ) arg4 fullShare kn
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare kp ∗ owns (c : Thread nD τ) arg4 fullShare kn
            ∗ owns (c : Thread nD τ) arg5 fullShare y5 ∗ owns (c : Thread nD τ) arg6 fullShare y6
            ∗ owns (c : Thread nD τ) arg7 fullShare (stepP i x0 kp k0_pay1) ∗ owns (c : Thread nD τ) arg8 fullShare (stepN i x0 kn k0_pay2)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  have hzA : (![0, 0] : Fin S512x1.rank → ℕ) = fun _ => 0 := by funext a; fin_cases a <;> rfl
  have hzQ : (![0, 0] : Fin S512x256.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    rw [View.read_writes_eq_canon _ _ _ (View.cover_of_tiledL _ S512x1.size (by sl_kernel_rfl))]
    rw [View.canon_cons_unit_zero (S := S512x1) hzA]
    simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
    rfl
  iexists _; isplitr
  swap; · iexact H8
  ipureintro
  sl_unfold_run_names
  rw [View.read_writes_eq_canon _ _ _ (View.cover_of_tiledL _ S512x1.size (by sl_kernel_rfl))]
  rw [View.canon_cons_unit_zero (S := S512x1) hzA]
  simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
  rfl

end Cert.KernelIdeal.Hand

end
-- ==== Proof.KernelIdeal.RunB.lean ====
/-
  The body away from the first and the last key tile: both running sums take one step, the outputs' buffers are not touched.
-/
import proofs.«421594_j68152541053488_3_alg».proof.Proof.KernelIdeal.Sched

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run_B (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬condReset i) (hc1 : ¬condLast i)
    (x0 : Vec F S512x256 .bf16) (kp kn : Vec F S8192x256 .bf16) (y5 y6 a7 a8 : Vec F S512x1 .f32) (E : Set ℕ) (K : PUnit → sProp 𝕄) :
    iprop(owns (c : Thread nD τ) arg2 fullShare x0 ∗ owns (c : Thread nD τ) arg3 fullShare kp ∗ owns (c : Thread nD τ) arg4 fullShare kn
        ∗ owns (c : Thread nD τ) arg5 fullShare y5 ∗ owns (c : Thread nD τ) arg6 fullShare y6
        ∗ owns (c : Thread nD τ) arg7 fullShare a7 ∗ owns (c : Thread nD τ) arg8 fullShare a8
        ∗ (iprop(owns (c : Thread nD τ) arg2 fullShare x0 ∗ owns (c : Thread nD τ) arg3 fullShare kp ∗ owns (c : Thread nD τ) arg4 fullShare kn
            ∗ owns (c : Thread nD τ) arg5 fullShare y5 ∗ owns (c : Thread nD τ) arg6 fullShare y6
            ∗ owns (c : Thread nD τ) arg7 fullShare (stepP i x0 kp a7) ∗ owns (c : Thread nD τ) arg8 fullShare (stepN i x0 kn a8)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6
  obtain rfl := harg7.eq_unread hf7; obtain rfl := harg8.eq_unread hf8
  sl_exec (disch := first | exact hc0 | exact hc1)
  sl_step
  iapply Hk
  have hzA : (![0, 0] : Fin S512x1.rank → ℕ) = fun _ => 0 := by funext a; fin_cases a <;> rfl
  have hzQ : (![0, 0] : Fin S512x256.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (View.cover_of_tiled _ S512x1.size (by rfl)), View.canon_unit_zero hzA]
    simp only [View.readAt_eq_ld, harg2.read_unread, harg3.read_unread, harg7.read_unread, View.ld_unit_zero (S := S512x256) hzQ, View.ld_unit_zero (S := S512x1) hzA]
    rfl
  iexists _; isplitr
  swap; · iexact H8
  ipureintro
  rw [View.read_writes_eq_canon _ _ _ (View.cover_of_tiled _ S512x1.size (by rfl))]
  sl_unfold_run_names
  rw [View.canon_unit_zero hzA]
  simp only [View.readAt_eq_ld, harg2.read_unread, harg4.read_unread, harg8.read_unread, View.ld_unit_zero (S := S512x256) hzQ, View.ld_unit_zero (S := S512x1) hzA]
  rfl

end Cert.KernelIdeal.Hand

end
-- ==== Proof.KernelIdeal.RunC.lean ====
/-
  The body at the last key tile: both running sums take their last step and are copied to the two outputs' buffers.
-/
import proofs.«421594_j68152541053488_3_alg».proof.Proof.KernelIdeal.Sched

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run_C (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬condReset i) (hc1 : condLast i)
    (x0 : Vec F S512x256 .bf16) (kp kn : Vec F S8192x256 .bf16) (a7 a8 : Vec F S512x1 .f32) (E : Set ℕ) (K : PUnit → sProp 𝕄) :
    iprop(owns (c : Thread nD τ) arg2 fullShare x0 ∗ owns (c : Thread nD τ) arg3 fullShare kp ∗ owns (c : Thread nD τ) arg4 fullShare kn
        ∗ (∃ d, owns (c : Thread nD τ) arg5 fullShare d) ∗ (∃ d, owns (c : Thread nD τ) arg6 fullShare d)
        ∗ owns (c : Thread nD τ) arg7 fullShare a7 ∗ owns (c : Thread nD τ) arg8 fullShare a8
        ∗ (iprop(owns (c : Thread nD τ) arg2 fullShare x0 ∗ owns (c : Thread nD τ) arg3 fullShare kp ∗ owns (c : Thread nD τ) arg4 fullShare kn
            ∗ owns (c : Thread nD τ) arg5 fullShare (stepP i x0 kp a7) ∗ owns (c : Thread nD τ) arg6 fullShare (stepN i x0 kn a8)
            ∗ owns (c : Thread nD τ) arg7 fullShare (stepP i x0 kp a7) ∗ owns (c : Thread nD τ) arg8 fullShare (stepN i x0 kn a8)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  have hzA : (![0, 0] : Fin S512x1.rank → ℕ) = fun _ => 0 := by funext a; fin_cases a <;> rfl
  have hzQ : (![0, 0] : Fin S512x256.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (View.cover_of_tiled _ S512x1.size (by rfl))]
    sl_unfold_run_names
    rw [View.canon_unit_zero hzA]
    simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
    rfl
  isplitl [H6]
  · iexists _; isplitr
    swap; · iexact H6
    ipureintro
    rw [View.read_writes_eq_canon _ _ _ (View.cover_of_tiled _ S512x1.size (by rfl))]
    sl_unfold_run_names
    rw [View.canon_unit_zero hzA]
    simp only [View.readAt_eq_ld, harg2.read_unread, harg3.read_unread, harg4.read_unread, harg7.read_unread, harg8.read_unread, View.ld_unit_zero (S := S512x256) hzQ, View.ld_unit_zero (S := S512x1) hzA, View.readCov_unit_zero (S := S512x1) _ hzA]
    rfl
  isplitl [H7]
  · iexists _; isplitr
    swap; · iexact H7
    ipureintro
    rw [View.read_writes_eq_canon _ _ _ (View.cover_of_tiled _ S512x1.size (by rfl))]
    sl_unfold_run_names
    rw [View.canon_unit_zero hzA]
    simp only [View.readAt_eq_ld, harg2.read_unread, harg3.read_unread, harg4.read_unread, harg7.read_unread, harg8.read_unread, View.ld_unit_zero (S := S512x256) hzQ, View.ld_unit_zero (S := S512x1) hzA]
    rfl
  iexists _; isplitr
  swap; · iexact H8
  ipureintro
  rw [View.read_writes_eq_canon _ _ _ (View.cover_of_tiled _ S512x1.size (by rfl))]
  sl_unfold_run_names
  rw [View.canon_unit_zero hzA]
  simp only [View.readAt_eq_ld, harg2.read_unread, harg3.read_unread, harg4.read_unread, harg7.read_unread, harg8.read_unread, View.ld_unit_zero (S := S512x256) hzQ, View.ld_unit_zero (S := S512x1) hzA]
  rfl

end Cert.KernelIdeal.Hand

end
-- ==== Proof.KernelIdeal.Oblig.lean ====
/-
  The body obligation of the pairwise kernel's pipeline: at every point the body, handed the query tile, the two key
  arrays and the running sums the point before left, leaves the running sums one step further; where the key tile is
  the first it starts them afresh, where it is the last it also fills the two outputs' buffers with them; elsewhere the
  outputs' buffers are handed back as found.
-/
import proofs.«421594_j68152541053488_3_alg».proof.Proof.KernelIdeal.Data
import proofs.«421594_j68152541053488_3_alg».proof.Proof.KernelIdeal.RunA
import proofs.«421594_j68152541053488_3_alg».proof.Proof.KernelIdeal.RunB
import proofs.«421594_j68152541053488_3_alg».proof.Proof.KernelIdeal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms0 (t : Fin cfg0.N) : Memref sig .tc .vmem S512x256 .bf16 := win0_0.stage (cfg0.slots t 0)
abbrev ms1 (t : Fin cfg0.N) : Memref sig .tc .vmem S8192x256 .bf16 := win0_1.stage (cfg0.slots t 1)
abbrev ms2 (t : Fin cfg0.N) : Memref sig .tc .vmem S8192x256 .bf16 := win0_2.stage (cfg0.slots t 2)
abbrev ms3 (t : Fin cfg0.N) : Memref sig .tc .vmem S512x1 .f32 := win0_3.stage (cfg0.slots t 3)
abbrev ms4 (t : Fin cfg0.N) : Memref sig .tc .vmem S512x1 .f32 := win0_4.stage (cfg0.slots t 4)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0 t) fullShare ((dat0 V c).after 0 t) from by
      unfold Dat.leavesExact; rw [live0 t], after_0]
  rw [show (dat0 V c).leavesExact 1 t = owns (c : Thread nD τ) (ms1 t) fullShare ((dat0 V c).after 1 t) from by
      unfold Dat.leavesExact; rw [live1 t], after_1]
  rw [show (dat0 V c).leavesExact 2 t = owns (c : Thread nD τ) (ms2 t) fullShare ((dat0 V c).after 2 t) from by
      unfold Dat.leavesExact; rw [live2 t], after_2]
  by_cases h0 : t.val % 4 = 0
  · have h1 : t.val % 4 ≠ 3 := by omega
    rw [Dat.leavesExact_idle (dat0 V c) 3 t (idle3 t h1) (noflush3 t h1), Dat.leavesExact_idle (dat0 V c) 4 t (idle4 t h1) (noflush4 t h1)]
    rw [accs_reset V c t h0]
    by_cases hz : t.val = 0
    · rw [PhiS_castSucc V c t, PhiS_zero V c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ _ _ ((hreset t).mpr h0) (fun h => h1 ((hlast t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ _ _ ((hreset t).mpr h0) (fun h => h1 ((hlast t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [accs_step V c t h0, PhiS_castSucc V c t, PhiS_pos V c _ _ hz]
    by_cases h1 : t.val % 4 = 3
    · rw [show (dat0 V c).leavesExact 3 t = owns (c : Thread nD τ) (ms3 t) fullShare ((dat0 V c).after 3 t) from by
        unfold Dat.leavesExact; rw [live3 t h1], after_3, accs_step V c t h0]
      rw [show (dat0 V c).leavesExact 4 t = owns (c : Thread nD τ) (ms4 t) fullShare ((dat0 V c).after 4 t) from by
        unfold Dat.leavesExact; rw [live4 t h1], after_4, accs_step V c t h0]
      iintro ⟨⟨⟨HS0, HS1⟩, Hg⟩, Ho, ⟨%d0, H0⟩, ⟨%d1, H1⟩, ⟨%d2, H2⟩, ⟨%d3, H3⟩, ⟨%d4, H4⟩⟩
      iapply (run_C c (grid0.coords t) _ _ _ _ _ _ _ _ _ _ _ _ _ _ (fun h => h0 ((hreset t).mp h)) ((hlast t).mpr h1) (iblk V c 0 t) (iblk V c 1 t) (iblk V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 3 t (idle3 t h1) (noflush3 t h1), Dat.leavesExact_idle (dat0 V c) 4 t (idle4 t h1) (noflush4 t h1)]
      iintro ⟨⟨⟨HS0, HS1⟩, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ _ _ (fun h => h0 ((hreset t).mp h)) (fun h => h1 ((hlast t).mp h)) (iblk V c 0 t) (iblk V c 1 t) (iblk V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the running sums' names are forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS0, HS1⟩, Hg⟩
  isplitl [HS0 HS1]
  · isplitl [HS0]; · iexists _; iexact HS0
    iexists _; iexact HS1
  iexact Hg

end Cert.KernelIdeal.Hand

end
-- ==== Proof.KernelIdeal.Run.lean ====
/-
  The run of the whole program on the TensorCore: the host operations that gather and stack the rows, the pairwise
  kernel's region, the host operations that turn the two columns of row sums into the loss.  The query tiles and the
  first resident key array are two windows on ONE array, which the region therefore holds in two halves: the array is
  split in two at the region's entry and put together again at its exit.  Every weakly fair execution terminates, and
  every unscoped buffer ends holding what the three stretches compose to.
-/
import proofs.«421594_j68152541053488_3_alg».proof.Proof.KernelIdeal.Vals
import proofs.«421594_j68152541053488_3_alg».proof.Proof.KernelIdeal.Oblig
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide) (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide) (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The region's arrays, window by window, and the buffers behind them -/

section Arrays
variable (V : (c : Dev nD) → (b : Ref sig .tc) → Buf (Elt F) ((c : Thread nD τ).loc b))

/-- One window's array: a whole buffer, at the window's share. -/
theorem arr_leaf (c : Dev nD) (w : Fin cfg0.W) (q : PosShare TreeShare) (h : (dat0 V c).share w = q)
    (g : Buf (Elt F) ((cfg0.win w).arr.view.loc (c : Thread nD τ))) :
    (((cfg0.win w).arr.view.loc (c : Thread nD τ)) ↦[(cfg0.win w).arr.view.set]{(dat0 V c).share w} g : sProp 𝕄)
      = (((cfg0.win w).arr.view.loc (c : Thread nD τ)) ↦{q} g) := by
  rw [(arr_whole0 w).set_eq_univ, h]

/-- The five windows' arrays at the shares the proof data names: the shared array in its two halves. -/
theorem arrays_eq5 (c : Dev nD) (G : (w : Fin cfg0.W) → Buf (Elt F) ((cfg0.win w).arr.view.loc (c : Thread nD τ))) :
    ((dat0 V c).arrays G : sProp 𝕄) = iprop(
      (((c : Thread nD τ).loc main_v30) ↦{fullShare.left} G 0) ∗ (((c : Thread nD τ).loc main_v30) ↦{fullShare.right} G 1) ∗
      (((c : Thread nD τ).loc main_v31) ↦{fullShare} G 2) ∗ (((c : Thread nD τ).loc main_v32_0) ↦{fullShare} G 3) ∗ (((c : Thread nD τ).loc main_v32_1) ↦{fullShare} G 4)) := by
  unfold Dat.arrays
  rw [bigSep_W0]
  exact congrArg₂ _ (arr_leaf V c 0 _ rfl _) (congrArg₂ _ (arr_leaf V c 1 _ rfl _) (congrArg₂ _ (arr_leaf V c 2 _ rfl _)
    (congrArg₂ _ (arr_leaf V c 3 _ rfl _) (arr_leaf V c 4 _ rfl _))))

/-- The four distinct buffers behind the five windows. -/
theorem arrBufs_eq4 (c : Dev nD) (X : (b : Ref sig .tc) → Buf (Elt F) ((c : Thread nD τ).loc b)) :
    (Pipeline.arrBufs (Ix := Unit) (Name := ℕ) (U := UR sig nD τ) (Lvl := ℕ) spec0 c X : sProp 𝕄) = iprop(
      (((c : Thread nD τ).loc main_v30) ↦{fullShare} X main_v30) ∗ (((c : Thread nD τ).loc main_v31) ↦{fullShare} X main_v31) ∗
      (((c : Thread nD τ).loc main_v32_0) ↦{fullShare} X main_v32_0) ∗ (((c : Thread nD τ).loc main_v32_1) ↦{fullShare} X main_v32_1)) := by
  unfold Pipeline.arrBufs
  rw [bigSep_eq_bigSepL_of_eq [main_v30, main_v31, main_v32_0, main_v32_1] (by decide) (by decide)]
  rfl

end Arrays

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
abbrev Tₙ (c : Dev nD) : sProp 𝕄 := iprop(StableHlo.held (c : Thread nD τ) (Pipeline.ucRefs τ sig) (W3 m ρ c) ∗ ∃ r, prngReg c r)

/-! ## The region's entry and exit -/

/-- ENTRY: every unscoped buffer at the entry contents is the five windows' arrays — the shared array split in two —
    and the buffers no window names. -/
theorem entry_split (c : Dev nD) :
    (StableHlo.held (c : Thread nD τ) (Pipeline.ucRefs τ sig) (W1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [← Pipeline.unscopedBufs_held c (W1 m ρ c), Pipeline.unscopedBufs_split₀ cfgs 0 winFacts₀0.arr_unscoped c (V1 m ρ c)]
  refine sep_mono ?_ .rfl
  rw [arrBufs_eq4, arrays_eq5]
  iintro ⟨H30, H31, H0, H1⟩
  ihave H30' := (pointsTo_share (PosShare.mem_left_op_right fullShare)).1 $$ H30
  icases H30' with ⟨Ha, Hb⟩
  isplitl [Ha]; · iexact Ha
  isplitl [Hb]; · iexact Hb
  isplitl [H31]; · iexact H31
  isplitl [H0]; · iexact H0
  iexact H1

/-- EXIT: the arrays at what the pipeline leaves — the two inputs' arrays as entered, the two halves of the shared one
    together again, the outputs at their write-backs — and the other buffers are every unscoped buffer at the exit contents. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c), Pipeline.unscopedBufs_split₀ cfgs 0 winFacts₀0.arr_unscoped c (fun b => W2 m ρ c b)]
  refine sep_mono ?_ (Entails.of_eq ?_)
  · rw [arrBufs_eq4, arrays_eq5]
    have e0 : (dat0 (V1 m ρ) c).arrAt 0 cfg0.N = W2 m ρ c (Proc.devRef .tc main_v30) :=
      (((dat0 (V1 m ρ) c).arrAt_in 0 rfl _).trans (A_eq (V1 m ρ) c 0)).trans (W2_of_ne m ρ c main_v30 (by decide) (by decide)).symm
    have e1 : (dat0 (V1 m ρ) c).arrAt 1 cfg0.N = W2 m ρ c (Proc.devRef .tc main_v30) :=
      (((dat0 (V1 m ρ) c).arrAt_in 1 rfl _).trans (A_eq (V1 m ρ) c 1)).trans (W2_of_ne m ρ c main_v30 (by decide) (by decide)).symm
    have e2 : (dat0 (V1 m ρ) c).arrAt 2 cfg0.N = W2 m ρ c (Proc.devRef .tc main_v31) :=
      (((dat0 (V1 m ρ) c).arrAt_in 2 rfl _).trans (A_eq (V1 m ρ) c 2)).trans (W2_of_ne m ρ c main_v31 (by decide) (by decide)).symm
    have e3 : (dat0 (V1 m ρ) c).arrAt 3 cfg0.N = W2 m ρ c (Proc.devRef .tc main_v32_0) := (W2_out0 m ρ c).symm
    have e4 : (dat0 (V1 m ρ) c).arrAt 4 cfg0.N = W2 m ρ c (Proc.devRef .tc main_v32_1) := (W2_out1 m ρ c).symm
    rw [e0, e1, e2, e3, e4]
    iintro ⟨Ha, Hb, H31, H0, H1⟩
    isplitl [Ha Hb]
    · iapply (pointsTo_share (PosShare.mem_left_op_right fullShare)).2
      isplitl [Ha]; · iexact Ha
      iexact Hb
    isplitl [H31]; · iexact H31
    isplitl [H0]; · iexact H0
    iexact H1
  · unfold Pipeline.unscopedRest
    exact bigSep_congr fun b hb => by
      have hb' := (Finset.mem_sdiff.mp hb).2
      exact congrArg (fun v => (((c : Thread nD τ).loc b) ↦{fullShare} v : sProp 𝕄))
        (W2_of_ne m ρ c b (fun e => hb' (e ▸ (by decide))) (fun e => hb' (e ▸ (by decide)))).symm

/-! ## The region as a segment -/

set_option backward.isDefEq.respectTransparency.types false in
/-- The region over the thread state: entered from every unscoped buffer at the entry contents, left with them at the
    exit contents; the generator register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none]
    have h := hout (V1 m ρ) c
    unfold Pipeline.ΦA at h
    rw [show (pdats m ρ 0 c).Φ (Fin.last _) = (dat0 (V1 m ρ) c).Φ (Fin.last cfg0.N) from rfl]
    iintro HP
    ihave H := h $$ HP
    icases H with ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every unscoped buffer ends at what the three stretches compose to. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

/-- The run with the result named: the loss buffer at the composed contents, the arguments as launched. -/
theorem run_result : θ_run defs (onTc (τ := τ) (main (F := F))) ⟨m, fun _ => 0, ρ⟩ (fun r => ∀ c : Dev nD,
      r.2.mem ((c.tc : Thread nD τ).loc main_v40) = W3 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v40 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.KernelIdeal.Hand

end
-- ==== Proof.Spec.lean ====
/-
  The mathematics of the pairwise contrast.  For two stacks of 8192 feature rows Q and K, the entry (r, k) of the
  similarity table is exp(20 · ⟨Q_r, K_k⟩) and the row sum at r adds the 8192 entries of row r.  The loss reads two such
  columns of row sums, P (the rows against themselves) and N (against the other stack): the mean over r of
  −log(P_r / (N_r + P_r)).  Everything is over the extended reals, the float word of 20 kept as the word.
-/
import Idealize.ShloMosaic.PureOps.Ideal.Laws
import Idealize.ShloMosaic.Lib.ValueIdx

noncomputable section

namespace Cert.Spec

open Idealize.ShloMosaic Idealize.ShloMosaic.ValueIdx

abbrev SK : Shape := ⟨2, ![8192, 256]⟩

/-- The scale both programs multiply the inner products by: the float word of 20. -/
abbrev twenty : EReal := Ideal.ofBits .f32 0x41A00000#32

/-- One entry of the similarity table. -/
def sim (Q K : SK.Idx → EReal) (r k : Fin 8192) : EReal :=
  Ideal.exp ((∑ d : Fin 256, Q (ix2 r d) * K (ix2 k d)) * twenty)

/-- The sum of row `r` of the similarity table. -/
def rowsum (Q K : SK.Idx → EReal) (r : Fin 8192) : EReal := ∑ k : Fin 8192, sim Q K r k

end Cert.Spec

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KernelValue.lean ====
/-
  What the two result columns of the pairwise kernel hold when the region ends, over the extended reals: row r of the
  first is the sum over all 8192 keys of exp(20 · ⟨q_r, k⟩) against the first key array, row r of the second the same
  against the second key array.
-/
import proofs.«421594_j68152541053488_3_alg».proof.Proof.KernelIdeal.Vals
import proofs.«421594_j68152541053488_3_alg».proof.Proof.Spec
import proofs.«421594_j68152541053488_3_alg».proof.Proof.LibAcc
import proofs.«421594_j68152541053488_3_alg».proof.Proof.LibBlockSum
import proofs.«421594_j68152541053488_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.Spec

variable (V : (c : Dev nD) → (b : Ref sig .tc) → Buf (Elt Ideal) ((c : Thread nD τ).loc b))

/-- The operand indices of the product at output index i and contraction index q, coordinate by coordinate. -/
theorem lhs_qk_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_qk_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhs_qk_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_qk_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The product of the query block and the transposed key tile into a zero accumulator, at (p, k): the inner product of
    query row p and key row k. -/
theorem qk_apply (x : FVec Ideal S512x256 .bf16) (y : FVec Ideal S2048x256 .bf16) (p : Fin 512) (k : Fin 2048) :
    matmul dot_S512x256_S2048x256_S512x2048_1_1_0_0_n_n none x y (constant (F := Ideal) S512x2048 .f32 0x00000000#32) (ix2 p k)
      = ∑ d : Fin 256, x (ix2 p d) * y (ix2 k d) := by
  simp only [matmul]
  rw [Ideal.matmul_constant_zero_apply, ← Equiv.sum_comp (ValueIdx.contrEquiv1 dot_S512x256_S2048x256_S512x2048_1_1_0_0_n_n 256 rfl rfl).symm]
  refine Finset.sum_congr rfl fun d _ => ?_
  have hk := ValueIdx.contrEquiv1_symm_val dot_S512x256_S2048x256_S512x2048_1_1_0_0_n_n 256 rfl rfl d
  have el : dot_S512x256_S2048x256_S512x2048_1_1_0_0_n_n.lhsIdx (ix2 p k) ((ValueIdx.contrEquiv1 dot_S512x256_S2048x256_S512x2048_1_1_0_0_n_n 256 rfl rfl).symm d) = ix2 p d := funext fun a => Fin.ext (by
    match a with
    | ⟨0, _⟩ => exact lhs_qk_0 _ _
    | ⟨1, _⟩ => exact (lhs_qk_1 _ _).trans hk)
  have er : dot_S512x256_S2048x256_S512x2048_1_1_0_0_n_n.rhsIdx (ix2 p k) ((ValueIdx.contrEquiv1 dot_S512x256_S2048x256_S512x2048_1_1_0_0_n_n 256 rfl rfl).symm d) = ix2 k d := funext fun a => Fin.ext (by
    match a with
    | ⟨0, _⟩ => exact rhs_qk_0 _ _
    | ⟨1, _⟩ => exact (rhs_qk_1 _ _).trans hk)
  rw [el, er]

/-- One step's payload at row p: the old sum plus the sum over the tile's 2048 keys of exp(20 · ⟨q_p, k⟩). -/
theorem pay4_apply (x0 : Vec Ideal S512x256 .bf16) (ks : Vec Ideal S2048x256 .bf16) (a : Vec Ideal S512x1 .f32) (p : Fin 512) (u : Fin 1) :
    (k0_pay4 (F := Ideal) x0 ks a : S512x1.Idx → EReal) (ix2 p u)
      = a (ix2 p u) + ∑ k : Fin 2048, Ideal.exp ((∑ d : Fin 256, x0 (ix2 p d) * ks (ix2 k d)) * twenty) := by
  unfold k0_pay4 k0_pay3
  simp only [shapeCast_self]
  rw [addf_apply, shapeCast_a_a1_apply]
  refine congrArg (a (ix2 p u) + ·) ((multiReduction_add_cols_apply _ _ _ _ p).trans (Finset.sum_congr rfl fun k _ => ?_))
  show Ideal.exp (matmul dot_S512x256_S2048x256_S512x2048_1_1_0_0_n_n none x0 ks (constant (F := Ideal) S512x2048 .f32 0x00000000#32) (ix2 p k) * twenty) = _
  rw [qk_apply]

/-- The two running sums take the same step. -/
theorem pay5_eq_pay4 {F : FTy → Type} [FloatOps F] : @k0_pay5 F _ = @k0_pay4 F _ := rfl

/-- The grid has 16 · 4 points. -/
theorem hN : cfg0.N = 16 * 4 := by decide

/-- The block indices of the five windows and the key tile's first row, at each of the 64 points. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ k0_off1 (grid0.coords t) (0 : Fin 2) = 2048 * (t.val % 4) ∧ k0_off1 (grid0.coords t) (1 : Fin 2) = 0 :=
  (by decide +kernel : ∀ t : Fin grid0.N, _)

/-- Row p of query tile n / 4, as a row of the 8192. -/
def qrow (n : ℕ) (hn : n < cfg0.N) (p : Fin 512) : Fin 8192 := ⟨512 * (n / 4) + p.val, by have := hN; have := p.isLt; omega⟩
/-- Row k of key tile n % 4, as a row of the 8192. -/
def krow (n : ℕ) (k : Fin 2048) : Fin 8192 := ⟨2048 * (n % 4) + k.val, by have := k.isLt; omega⟩

/-- The query block of point t is rows 512 · (t / 4) … of the first array; the two key blocks are the two arrays whole. -/
theorem iblk0_apply (c : Dev nD) (t : Fin cfg0.N) (p : Fin 512) (d : Fin 256) :
    (iblk V c 0 t : S512x256.Idx → EReal) (ix2 p d) = V c main_v30 (ix2 (qrow t.val t.isLt p) d) := by
  obtain ⟨e0, e1, -⟩ := idx_facts t
  unfold iblk
  rw [View.read_apply]
  show V c main_v30 _ = V c main_v30 _
  congr 1
  funext a
  apply Fin.ext
  match a with
  | ⟨0, _⟩ => show win0_0.index t (0 : Fin 2) * 512 + 1 * p.val = 512 * (t.val / 4) + p.val; rw [e0]; omega
  | ⟨1, _⟩ => show win0_0.index t (1 : Fin 2) * 256 + 1 * d.val = d.val; rw [e1]; omega

theorem iblk1_apply (c : Dev nD) (t : Fin cfg0.N) (k : Fin 8192) (d : Fin 256) :
    (iblk V c 1 t : S8192x256.Idx → EReal) (ix2 k d) = V c main_v30 (ix2 k d) := by
  obtain ⟨-, -, e0, e1, -⟩ := idx_facts t
  unfold iblk
  rw [View.read_apply]
  show V c main_v30 _ = V c main_v30 _
  congr 1
  funext a
  apply Fin.ext
  match a with
  | ⟨0, _⟩ => show win0_1.index t (0 : Fin 2) * 8192 + 1 * k.val = k.val; rw [e0]; omega
  | ⟨1, _⟩ => show win0_1.index t (1 : Fin 2) * 256 + 1 * d.val = d.val; rw [e1]; omega

theorem iblk2_apply (c : Dev nD) (t : Fin cfg0.N) (k : Fin 8192) (d : Fin 256) :
    (iblk V c 2 t : S8192x256.Idx → EReal) (ix2 k d) = V c main_v31 (ix2 k d) := by
  obtain ⟨-, -, -, -, e0, e1, -⟩ := idx_facts t
  unfold iblk
  rw [View.read_apply]
  show V c main_v31 _ = V c main_v31 _
  congr 1
  funext a
  apply Fin.ext
  match a with
  | ⟨0, _⟩ => show win0_2.index t (0 : Fin 2) * 8192 + 1 * k.val = k.val; rw [e0]; omega
  | ⟨1, _⟩ => show win0_2.index t (1 : Fin 2) * 256 + 1 * d.val = d.val; rw [e1]; omega

/-- The key tile of point t, read off a whole key array: its row k is the array's row 2048 · (t % 4) + k. -/
theorem ktile_apply (t : Fin cfg0.N) (X : Vec Ideal S8192x256 .bf16) (k : Fin 2048) (d : Fin 256) :
    (View.ld X (rK (grid0.coords t)) : S2048x256.Idx → EReal) (ix2 k d) = X (ix2 (krow t.val k) d) := by
  obtain ⟨-, -, -, -, -, -, -, -, -, -, e0, e1⟩ := idx_facts t
  show X _ = X _
  congr 1
  funext a
  apply Fin.ext
  match a with
  | ⟨0, _⟩ => show k0_off1 (grid0.coords t) (0 : Fin 2) + 1 * k.val = 2048 * (t.val % 4) + k.val; rw [e0]; omega
  | ⟨1, _⟩ => show k0_off1 (grid0.coords t) (1 : Fin 2) + 1 * d.val = d.val; rw [e1]; omega

/-- The sum, over the 2048 keys of point n's key tile, of the similarities of row p of point n's query tile with them. -/
def tileSum (Q K : SK.Idx → EReal) (n : ℕ) (hn : n < cfg0.N) (p : Fin 512) : EReal :=
  ∑ k : Fin 2048, sim Q K (qrow n hn p) (krow n k)

/-- One step of a running sum at point t, against any resident key array. -/
theorem stepP_apply (c : Dev nD) (t : Fin cfg0.N) (kp : Vec Ideal S8192x256 .bf16) (a : Vec Ideal S512x1 .f32) (p : Fin 512) (u : Fin 1) :
    (stepP (F := Ideal) (grid0.coords t) (iblk V c 0 t) kp a : S512x1.Idx → EReal) (ix2 p u)
      = a (ix2 p u) + tileSum (V c main_v30) kp t.val t.isLt p := by
  unfold stepP tileSum sim
  rw [pay4_apply]
  refine congrArg (a (ix2 p u) + ·) (Finset.sum_congr rfl fun k _ => ?_)
  refine congrArg (fun z => Ideal.exp (z * twenty)) (Finset.sum_congr rfl fun d _ => ?_)
  rw [iblk0_apply, ktile_apply]

/-- The zero column the running sums start from. -/
theorem pay1_apply (j : S512x1.Idx) : (k0_pay1 (F := Ideal) : S512x1.Idx → EReal) j = 0 := by
  unfold k0_pay1
  simp only [shapeCast_self]
  show Ideal.ofBits .f32 0x00000000#32 = 0
  exact Ideal.ofBits_zero_f32
theorem pay2_apply (j : S512x1.Idx) : (k0_pay2 (F := Ideal) : S512x1.Idx → EReal) j = 0 := by
  unfold k0_pay2
  simp only [shapeCast_self]
  show Ideal.ofBits .f32 0x00000000#32 = 0
  exact Ideal.ofBits_zero_f32

/-- The whole key arrays are resident: the blocks of windows 1 and 2 are the arrays. -/
theorem iblk1_eq (c : Dev nD) (t : Fin cfg0.N) : (iblk V c 1 t : S8192x256.Idx → EReal) = V c main_v30 := by
  funext j
  obtain ⟨k, d, rfl⟩ : ∃ (k : Fin 8192) (d : Fin 256), j = ix2 k d := ⟨j 0, j 1, eq_ix2 j⟩
  exact iblk1_apply V c t k d
theorem iblk2_eq (c : Dev nD) (t : Fin cfg0.N) : (iblk V c 2 t : S8192x256.Idx → EReal) = V c main_v31 := by
  funext j
  obtain ⟨k, d, rfl⟩ : ∃ (k : Fin 8192) (d : Fin 256), j = ix2 k d := ⟨j 0, j 1, eq_ix2 j⟩
  exact iblk2_apply V c t k d

/-- A running sum that starts from zero at the first key tile of each query tile and adds the tile's sum at every
    point holds, at the last key tile, the row sum over all 8192 keys. -/
theorem fold_rowsum (Q K : SK.Idx → EReal) (p : Fin 512) (acc : (n : ℕ) → n < cfg0.N → EReal) (z : EReal) (hz : z = 0)
    (hreset : ∀ n (hn : n < cfg0.N), n % 4 = 0 → acc n hn = z + tileSum Q K n hn p)
    (hstep : ∀ n (hn : n < cfg0.N) (h : n % 4 ≠ 0), acc n hn = acc (n - 1) (by omega) + tileSum Q K n hn p)
    (t : Fin cfg0.N) (h3 : t.val % 4 = 3) : acc t.val t.isLt = rowsum Q K (qrow t.val t.isLt p) := by
  have hlt : ∀ n, n < 16 * 4 → n < cfg0.N := fun n h => by rw [hN]; exact h
  have hb : t.val / 4 < 16 := by have h1 : t.val < 16 * 4 := lt_of_lt_of_eq t.isLt hN; omega
  have hlast := Cert.LibAcc.acc_last_zero 4 16 (fun n hn => acc n (hlt n hn)) (fun n hn => tileSum Q K n (hlt n hn) p) z hz
    (fun n hn h => hreset n (hlt n hn) h) (fun n hn h => hstep n (hlt n hn) h) (by decide) ⟨t.val / 4, hb⟩
  have same : ∀ (n : ℕ) (hn : n < cfg0.N), n = t.val → acc n hn = acc t.val t.isLt := fun n hn e => by subst e; rfl
  rw [← same (t.val / 4 * 4 + (4 - 1)) (hlt _ (Cert.LibAcc.idx_lt ⟨t.val / 4, hb⟩ (by omega))) (by omega)]
  refine hlast.trans ?_
  unfold rowsum
  rw [Cert.LibBlockSum.sum_blocks (B := 4) (R := 2048) (N := 8192) (by norm_num)]
  refine Finset.sum_congr rfl fun i _ => ?_
  unfold tileSum
  refine Finset.sum_congr rfl fun k _ => ?_
  have hi := i.isLt
  have e1 : qrow (t.val / 4 * 4 + i.val) (hlt _ (Cert.LibAcc.idx_lt ⟨t.val / 4, hb⟩ i.isLt)) p = qrow t.val t.isLt p :=
    Fin.ext (by show 512 * ((t.val / 4 * 4 + i.val) / 4) + p.val = 512 * (t.val / 4) + p.val; omega)
  have e2 : krow (t.val / 4 * 4 + i.val) k = Cert.LibBlockSum.blockIdx (B := 4) (R := 2048) (N := 8192) (by norm_num) i k :=
    Fin.ext (by show 2048 * ((t.val / 4 * 4 + i.val) % 4) + k.val = 2048 * i.val + k.val; omega)
  show sim Q K (qrow (t.val / 4 * 4 + i.val) _ p) (krow (t.val / 4 * 4 + i.val) k) = _
  rw [e1, e2]

/-- The same step for the second running sum. -/
theorem stepN_apply (c : Dev nD) (t : Fin cfg0.N) (kn : Vec Ideal S8192x256 .bf16) (a : Vec Ideal S512x1 .f32) (p : Fin 512) (u : Fin 1) :
    (stepN (F := Ideal) (grid0.coords t) (iblk V c 0 t) kn a : S512x1.Idx → EReal) (ix2 p u)
      = a (ix2 p u) + tileSum (V c main_v30) kn t.val t.isLt p :=
  stepP_apply V c t kn a p u

/-- At the last key tile of a query tile the first running sum holds the row sums against the first keys. -/
theorem acc1_flush (c : Dev nD) (t : Fin cfg0.N) (h3 : t.val % 4 = 3) (p : Fin 512) (u : Fin 1) :
    ((accs V c t.val t.isLt).1 : S512x1.Idx → EReal) (ix2 p u) = rowsum (V c main_v30) (V c main_v30) (qrow t.val t.isLt p) :=
  fold_rowsum (V c main_v30) (V c main_v30) p (fun n hn => ((accs V c n hn).1 : S512x1.Idx → EReal) (ix2 p u))
    ((k0_pay1 (F := Ideal) : S512x1.Idx → EReal) (ix2 p u)) (pay1_apply _)
    (fun n hn h => (congrArg (fun x : Vec Ideal S512x1 .f32 × Vec Ideal S512x1 .f32 => (x.1 : S512x1.Idx → EReal) (ix2 p u)) (accs_reset V c ⟨n, hn⟩ h)).trans
      ((stepP_apply V c ⟨n, hn⟩ _ _ p u).trans (by rw [iblk1_eq])))
    (fun n hn h => (congrArg (fun x : Vec Ideal S512x1 .f32 × Vec Ideal S512x1 .f32 => (x.1 : S512x1.Idx → EReal) (ix2 p u)) (accs_step V c ⟨n, hn⟩ h)).trans
      ((stepP_apply V c ⟨n, hn⟩ _ _ p u).trans (by rw [iblk1_eq])))
    t h3

/-- And the second the row sums against the second keys. -/
theorem acc2_flush (c : Dev nD) (t : Fin cfg0.N) (h3 : t.val % 4 = 3) (p : Fin 512) (u : Fin 1) :
    ((accs V c t.val t.isLt).2 : S512x1.Idx → EReal) (ix2 p u) = rowsum (V c main_v30) (V c main_v31) (qrow t.val t.isLt p) :=
  fold_rowsum (V c main_v30) (V c main_v31) p (fun n hn => ((accs V c n hn).2 : S512x1.Idx → EReal) (ix2 p u))
    ((k0_pay2 (F := Ideal) : S512x1.Idx → EReal) (ix2 p u)) (pay2_apply _)
    (fun n hn h => (congrArg (fun x : Vec Ideal S512x1 .f32 × Vec Ideal S512x1 .f32 => (x.2 : S512x1.Idx → EReal) (ix2 p u)) (accs_reset V c ⟨n, hn⟩ h)).trans
      ((stepN_apply V c ⟨n, hn⟩ _ _ p u).trans (by rw [iblk2_eq])))
    (fun n hn h => (congrArg (fun x : Vec Ideal S512x1 .f32 × Vec Ideal S512x1 .f32 => (x.2 : S512x1.Idx → EReal) (ix2 p u)) (accs_step V c ⟨n, hn⟩ h)).trans
      ((stepN_apply V c ⟨n, hn⟩ _ _ p u).trans (by rw [iblk2_eq])))
    t h3

/-- A function of the row as the contents of an 8192 × 1 array. -/
def colOf (f : Fin 8192 → EReal) : S8192x1.Idx → EReal := fun i => f ⟨(i 0).val, idx2_lt0 i⟩

/-- What a point at a last key tile writes back into the first result is its block of the column of row sums. -/
theorem flushed3_eq (c : Dev nD) (t : Fin cfg0.N) (hf : (cfg0.win 3).flush t = true) :
    (dat0 (F := Ideal) V c).flushed 3 t
      = ((cfg0.win 3).blk t).view.read (Elt Ideal) (colOf (rowsum (V c main_v30) (V c main_v30))) := by
  have h3 := (flush0_3 t).mp hf
  obtain ⟨-, -, -, -, -, -, e0, e1, -⟩ := idx_facts t
  show (cfg0.win 3).cut (grid0.coords t) ((dat0 V c).after 3 t) = _
  rw [after_3]
  funext j
  obtain ⟨p, u, rfl⟩ : ∃ (p : Fin 512) (u : Fin 1), j = ix2 p u := ⟨j 0, j 1, eq_ix2 j⟩
  rw [View.read_apply]
  show ((accs V c t.val t.isLt).1 : S512x1.Idx → EReal) (ix2 p u) = _
  rw [acc1_flush V c t h3 p u]
  show _ = colOf (rowsum (V c main_v30) (V c main_v30)) (((cfg0.win 3).blk t).view.emb (ix2 p u))
  unfold colOf
  congr 1
  apply Fin.ext
  show 512 * (t.val / 4) + p.val = win0_3.index t (0 : Fin 2) * 512 + 1 * p.val
  rw [e0]; omega

theorem flushed4_eq (c : Dev nD) (t : Fin cfg0.N) (hf : (cfg0.win 4).flush t = true) :
    (dat0 (F := Ideal) V c).flushed 4 t
      = ((cfg0.win 4).blk t).view.read (Elt Ideal) (colOf (rowsum (V c main_v30) (V c main_v31))) := by
  have h3 := (flush0_4 t).mp hf
  obtain ⟨-, -, -, -, -, -, -, -, e0, e1, -⟩ := idx_facts t
  show (cfg0.win 4).cut (grid0.coords t) ((dat0 V c).after 4 t) = _
  rw [after_4]
  funext j
  obtain ⟨p, u, rfl⟩ : ∃ (p : Fin 512) (u : Fin 1), j = ix2 p u := ⟨j 0, j 1, eq_ix2 j⟩
  rw [View.read_apply]
  show ((accs V c t.val t.isLt).2 : S512x1.Idx → EReal) (ix2 p u) = _
  rw [acc2_flush V c t h3 p u]
  show _ = colOf (rowsum (V c main_v30) (V c main_v31)) (((cfg0.win 4).blk t).view.emb (ix2 p u))
  unfold colOf
  congr 1
  apply Fin.ext
  show 512 * (t.val / 4) + p.val = win0_4.index t (0 : Fin 2) * 512 + 1 * p.val
  rw [e0]; omega

/-- An index of a result array is in point t's block iff each coordinate is in the block's range on its axis. -/
theorem mem_blk3 (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v32_0).slice (win0_3.rect t)).set ↔ _
  rw [View.set_slice_whole, Rect.mem_set_unit]
  exact Iff.rfl
theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v32_1).slice (win0_4.rect t)).set ↔ _
  rw [View.set_slice_whole, Rect.mem_set_unit]
  exact Iff.rfl

/-- Row r of a result array is written back by the point at the last key tile of query tile r / 512. -/
theorem cover3 (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  obtain ⟨t, ht⟩ : ∃ t : Fin cfg0.N, t.val = 4 * ((i 0).val / 512) + 3 := ⟨⟨4 * ((i 0).val / 512) + 3, by rw [hN]; omega⟩, rfl⟩
  obtain ⟨-, -, -, -, -, -, e0, e1, -⟩ := idx_facts t
  refine ⟨t, (flush0_3 t).mpr (by omega), ?_⟩
  rw [mem_blk3]
  intro a
  match a with
  | ⟨0, _⟩ => show win0_3.index t (0 : Fin 2) * 512 ≤ (i 0).val ∧ (i 0).val < win0_3.index t (0 : Fin 2) * 512 + 512; rw [e0]; omega
  | ⟨1, _⟩ => show win0_3.index t (1 : Fin 2) * 1 ≤ (i 1).val ∧ (i 1).val < win0_3.index t (1 : Fin 2) * 1 + 1; rw [e1]; omega
theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  obtain ⟨t, ht⟩ : ∃ t : Fin cfg0.N, t.val = 4 * ((i 0).val / 512) + 3 := ⟨⟨4 * ((i 0).val / 512) + 3, by rw [hN]; omega⟩, rfl⟩
  obtain ⟨-, -, -, -, -, -, -, -, e0, e1, -⟩ := idx_facts t
  refine ⟨t, (flush0_4 t).mpr (by omega), ?_⟩
  rw [mem_blk4]
  intro a
  match a with
  | ⟨0, _⟩ => show win0_4.index t (0 : Fin 2) * 512 ≤ (i 0).val ∧ (i 0).val < win0_4.index t (0 : Fin 2) * 512 + 512; rw [e0]; omega
  | ⟨1, _⟩ => show win0_4.index t (1 : Fin 2) * 1 ≤ (i 1).val ∧ (i 1).val < win0_4.index t (1 : Fin 2) * 1 + 1; rw [e1]; omega

/-- So the two result arrays end holding the two columns of row sums. -/
theorem arr3_eq (c : Dev nD) : (dat0 (F := Ideal) V c).arrAt 3 cfg0.N = colOf (rowsum (V c main_v30) (V c main_v30)) :=
  (dat0 (F := Ideal) V c).arrAt_eq_of_cover 3 _ (flushed3_eq V c) cover3
theorem arr4_eq (c : Dev nD) : (dat0 (F := Ideal) V c).arrAt 4 cfg0.N = colOf (rowsum (V c main_v30) (V c main_v31)) :=
  (dat0 (F := Ideal) V c).arrAt_eq_of_cover 4 _ (flushed4_eq V c) cover4

theorem final_out0 (c : Dev nD) (r : Fin 8192) (u : Fin 1) :
    ((dat0 (F := Ideal) V c).arrAt 3 cfg0.N : S8192x1.Idx → EReal) (ix2 r u) = rowsum (V c main_v30) (V c main_v30) r :=
  congrFun (arr3_eq V c) (ix2 r u)

theorem final_out1 (c : Dev nD) (r : Fin 8192) (u : Fin 1) :
    ((dat0 (F := Ideal) V c).arrAt 4 cfg0.N : S8192x1.Idx → EReal) (ix2 r u) = rowsum (V c main_v30) (V c main_v31) r :=
  congrFun (arr4_eq V c) (ix2 r u)

end Cert.KernelIdeal.HandValue

end
-- ==== Proof.RefValue.lean ====
/-
  The reference's two columns of row sums, read off its operations one at a time over the extended reals: row r of each
  is the sum over all 8192 rows k of the second stack of exp(20 · ⟨first stack's row r, second stack's row k⟩).
-/
import proofs.«421594_j68152541053488_3_alg».proof.Proof.Gen.ReferenceIdeal.Read
import proofs.«421594_j68152541053488_3_alg».proof.Proof.Spec
import Idealize.ShloMosaic.Lib.ValueIdx
import Idealize.ShloMosaic.PureOps.Ideal.Laws

set_option maxRecDepth 16384

noncomputable section

namespace Cert.ReferenceIdeal.HandValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Read Cert.Spec

/-- Entry (r, k) of the first table reads its left factor at row r, feature d. -/
theorem lidx_P (r k : Fin 8192) (d : Fin 256) : lidx_main_v35 (idx_main_v39 (ix1 r) k) d = ix2 r d :=
  funext fun a => Fin.ext (by match a with | ⟨0, _⟩ => rfl | ⟨1, _⟩ => rfl)

/-- Entry (r, k) of the first table reads its right factor at row k, feature d. -/
theorem ridx_P (r k : Fin 8192) (d : Fin 256) : ridx_main_v35 (idx_main_v39 (ix1 r) k) d = ix2 k d :=
  funext fun a => Fin.ext (by match a with | ⟨0, _⟩ => rfl | ⟨1, _⟩ => rfl)

/-- Entry (r, k) of the second table reads its left factor at row r, feature d. -/
theorem lidx_N (r k : Fin 8192) (d : Fin 256) : lidx_main_v30 (idx_main_v34 (ix1 r) k) d = ix2 r d :=
  funext fun a => Fin.ext (by match a with | ⟨0, _⟩ => rfl | ⟨1, _⟩ => rfl)

/-- Entry (r, k) of the second table reads its right factor at row k, feature d. -/
theorem ridx_N (r k : Fin 8192) (d : Fin 256) : ridx_main_v30 (idx_main_v34 (ix1 r) k) d = ix2 k d :=
  funext fun a => Fin.ext (by match a with | ⟨0, _⟩ => rfl | ⟨1, _⟩ => rfl)

/-- Row r of the first column: 0 plus the sum over k of exp of 20 times the inner product of rows r and k of the
    first stack; the leading 0 drops. -/
theorem ref_P (x0 x1 : (⟨S16384x256, .f32⟩ : BufTy).Contents (Elt Ideal)) (x2 : (⟨S4096, .i32⟩ : BufTy).Contents (Elt Ideal)) (r : Fin 8192) :
    val_main_v39 x0 x1 x2 (ix1 r) = rowsum (val_main_v14 x0 x1 x2) (val_main_v14 x0 x1 x2) r := by
  rw [val_main_v39_apply, val_main_cst_9_apply, Ideal.ofBits_def, Ideal.ofBits_zero_f32, zero_add]
  unfold rowsum
  refine Finset.sum_congr rfl fun k _ => ?_
  rw [val_main_v38_apply, val_main_v37_apply, val_main_v36_apply, val_main_cst_8_apply, val_main_v35_apply]
  generalize val_main_v14 x0 x1 x2 = P
  simp only [Ideal.hostUnary_exp_def, Ideal.mulf_def, Ideal.ofBits_def, lidx_P, ridx_P]
  rfl

/-- Row r of the second column: the same with the right factor's rows taken from the second stack. -/
theorem ref_N (x0 x1 : (⟨S16384x256, .f32⟩ : BufTy).Contents (Elt Ideal)) (x2 x3 : (⟨S4096, .i32⟩ : BufTy).Contents (Elt Ideal)) (r : Fin 8192) :
    val_main_v34 x0 x1 x2 x3 (ix1 r) = rowsum (val_main_v14 x0 x1 x2) (val_main_v29 x0 x1 x3) r := by
  rw [val_main_v34_apply, val_main_cst_7_apply, Ideal.ofBits_def, Ideal.ofBits_zero_f32, zero_add]
  unfold rowsum
  refine Finset.sum_congr rfl fun k _ => ?_
  rw [val_main_v33_apply, val_main_v32_apply, val_main_v31_apply, val_main_cst_apply, val_main_v30_apply]
  generalize val_main_v14 x0 x1 x2 = P
  generalize val_main_v29 x0 x1 x3 = K
  simp only [Ideal.hostUnary_exp_def, Ideal.mulf_def, Ideal.ofBits_def, lidx_N, ridx_N]
  rfl

end Cert.ReferenceIdeal.HandValue

end
-- ==== Proof.Bridge.lean ====
/-
  The two programs end with the same number.  The kernel's program stacks the gathered rows, rounds them to bf16 (the
  identity over the extended reals), runs the pairwise region and then takes the mean of −log(P / (N + P)) over the two
  columns of row sums; the reference stacks the same rows, takes the same row sums of the whole similarity tables, and
  the same mean.  Row by row the columns agree, so the two means are one term.
-/
import proofs.«421594_j68152541053488_3_alg».proof.Proof.KernelIdeal.Vals
import proofs.«421594_j68152541053488_3_alg».proof.Proof.RefValue
import proofs.«421594_j68152541053488_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.Bridge

open Idealize.ShloMosaic Idealize.ShloMosaic.TcCoe Idealize.SL.Sem Idealize.ShloMosaic.ValueIdx
open Idealize.ShloMosaic.Pipeline (Dat)
open Cert.Spec

/-- An `[a, 1]` array cast to `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The mean over the 8192 rows of −log(P_r / (N_r + P_r)), as both programs compute it from the two columns. -/
def tail (P N : (⟨Cert.KernelIdeal.S8192, .f32⟩ : BufTy).Contents (Elt Ideal)) : (⟨Cert.KernelIdeal.S_, .f32⟩ : BufTy).Contents (Elt Ideal) :=
  Host.divf (F := Ideal)
    (Host.reduceAdd (F := Ideal) (Host.negf (F := Ideal) (Host.log (F := Ideal) (Host.divf (F := Ideal) P (addf (F := Ideal) N P))))
      (constant (F := Ideal) Cert.KernelIdeal.S_ .f32 0x00000000#32) Cert.KernelIdeal.Gen.reducesTo_S8192_S_d0 Cert.KernelIdeal.Gen.h_S_)
    (constant (F := Ideal) Cert.KernelIdeal.S_ .f32 0x46000000#32)

open Cert.KernelIdeal Cert.KernelIdeal.Gen Cert.KernelIdeal.Hand in
/-- The kernel's program ends with the mean applied to its two output columns, each flattened from `[8192, 1]` to `[8192]`. -/
theorem kernel_tail (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    W3 (F := Ideal) m ρ c (Proc.devRef .tc main_v40)
      = tail (shapeCast S8192 (W2 (F := Ideal) m ρ c (Proc.devRef .tc main_v32_0) : S8192x1.Idx → EReal) shapeCasts_S8192x1_S8192)
             (shapeCast S8192 (W2 (F := Ideal) m ρ c (Proc.devRef .tc main_v32_1) : S8192x1.Idx → EReal) shapeCasts_S8192x1_S8192) := by
  show StableHlo.after hostOps1 _ (Proc.devRef .tc main_v40) = _
  dsimp only [hostOps1]
  after_results
  rfl

open Cert.ReferenceIdeal Cert.ReferenceIdeal.Gen Cert.ReferenceIdeal.Read in
/-- The reference ends with the same mean applied to its two columns of row sums. -/
theorem ref_tail (x0 x1 : (⟨S16384x256, .f32⟩ : BufTy).Contents (Elt Ideal)) (x2 x3 : (⟨S4096, .i32⟩ : BufTy).Contents (Elt Ideal)) :
    val_main_v45 (F := Ideal) x0 x1 x2 x3 = tail (val_main_v39 (F := Ideal) x0 x1 x2) (val_main_v34 (F := Ideal) x0 x1 x2 x3) := by
  unfold val_main_v45 val_main_v44 val_main_v43 val_main_v42 val_main_v41 val_main_v40 val_main_cst_10 val_main_cst_11
  generalize val_main_v39 (F := Ideal) x0 x1 x2 = P
  generalize val_main_v34 (F := Ideal) x0 x1 x2 x3 = N
  rfl

open Cert.KernelIdeal Cert.KernelIdeal.Gen Cert.KernelIdeal.Hand in
/-- The kernel's first output column, flattened, is the column of row sums it is given to be. -/
theorem kernel_col0 (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (Q K : SK.Idx → EReal)
    (h : ∀ (r : Fin 8192) (u : Fin 1), ((dat0 (F := Ideal) (V1 m ρ) c).arrAt 3 cfg0.N : S8192x1.Idx → EReal) (ix2 r u) = rowsum Q K r) :
    shapeCast S8192 (W2 (F := Ideal) m ρ c (Proc.devRef .tc main_v32_0) : S8192x1.Idx → EReal) shapeCasts_S8192x1_S8192
      = fun j => rowsum Q K (j 0) := by
  funext j
  obtain ⟨r, rfl⟩ : ∃ r : Fin 8192, j = ix1 r := ⟨j 0, eq_ix1 j⟩
  rw [shapeCast_a1_a_apply, W2_out0]
  exact h r 0

open Cert.KernelIdeal Cert.KernelIdeal.Gen Cert.KernelIdeal.Hand in
/-- The kernel's second output column, flattened, is the column of row sums it is given to be. -/
theorem kernel_col1 (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (Q K : SK.Idx → EReal)
    (h : ∀ (r : Fin 8192) (u : Fin 1), ((dat0 (F := Ideal) (V1 m ρ) c).arrAt 4 cfg0.N : S8192x1.Idx → EReal) (ix2 r u) = rowsum Q K r) :
    shapeCast S8192 (W2 (F := Ideal) m ρ c (Proc.devRef .tc main_v32_1) : S8192x1.Idx → EReal) shapeCasts_S8192x1_S8192
      = fun j => rowsum Q K (j 0) := by
  funext j
  obtain ⟨r, rfl⟩ : ∃ r : Fin 8192, j = ix1 r := ⟨j 0, eq_ix1 j⟩
  rw [shapeCast_a1_a_apply, W2_out1]
  exact h r 0

open Cert.ReferenceIdeal Cert.ReferenceIdeal.Gen Cert.ReferenceIdeal.Read in
/-- The reference's first column is the column of row sums of the first stack against itself. -/
theorem ref_col0 (x0 x1 : (⟨S16384x256, .f32⟩ : BufTy).Contents (Elt Ideal)) (x2 : (⟨S4096, .i32⟩ : BufTy).Contents (Elt Ideal)) :
    val_main_v39 (F := Ideal) x0 x1 x2 = fun j => rowsum (val_main_v14 x0 x1 x2) (val_main_v14 x0 x1 x2) (j 0) := by
  funext j
  obtain ⟨r, rfl⟩ : ∃ r : Fin 8192, j = ix1 r := ⟨j 0, eq_ix1 j⟩
  exact Cert.ReferenceIdeal.HandValue.ref_P x0 x1 x2 r

open Cert.ReferenceIdeal Cert.ReferenceIdeal.Gen Cert.ReferenceIdeal.Read in
/-- The reference's second column is the column of row sums of the first stack against the second. -/
theorem ref_col1 (x0 x1 : (⟨S16384x256, .f32⟩ : BufTy).Contents (Elt Ideal)) (x2 x3 : (⟨S4096, .i32⟩ : BufTy).Contents (Elt Ideal)) :
    val_main_v34 (F := Ideal) x0 x1 x2 x3 = fun j => rowsum (val_main_v14 x0 x1 x2) (val_main_v29 x0 x1 x3) (j 0) := by
  funext j
  obtain ⟨r, rfl⟩ : ∃ r : Fin 8192, j = ix1 r := ⟨j 0, eq_ix1 j⟩
  exact Cert.ReferenceIdeal.HandValue.ref_N x0 x1 x2 x3 r

set_option maxHeartbeats 2000000 in
open Cert.KernelIdeal Cert.KernelIdeal.Gen Cert.KernelIdeal.Hand in
/-- The first stack the region reads: the rows gathered from the two inputs by the first index vector (negative indices
    wrapped), stacked, and rounded to bf16, which over the extended reals changes nothing: the reference's first stack. -/
theorem kernel_P (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    (V1 (F := Ideal) m ρ c main_v30 : S8192x256.Idx → EReal)
      = Cert.ReferenceIdeal.Read.val_main_v14 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v30) = _
  dsimp only [hostOps0]
  after_results
  open Cert.ReferenceIdeal.Read in
  unfold val_main_v14 val_main_v13 val_main_v6 val_main_v12 val_main_v11 val_main_v10 val_main_v9 val_main_v8 val_main_v7 val_main_v5 val_main_v4 val_main_v3 val_main_v2 val_main_v1 val_main_v0 val_main_c val_main_c_0 val_main_c_1 val_main_c_2
  rfl

set_option maxHeartbeats 2000000 in
open Cert.KernelIdeal Cert.KernelIdeal.Gen Cert.KernelIdeal.Hand in
/-- The second stack the region reads: the same with the second index vector: the reference's second stack. -/
theorem kernel_N (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    (V1 (F := Ideal) m ρ c main_v31 : S8192x256.Idx → EReal)
      = Cert.ReferenceIdeal.Read.val_main_v29 (F := Ideal) (m ((c.tc : Thread nD τ).loc main_arg0)) (m ((c.tc : Thread nD τ).loc main_arg1)) (m ((c.tc : Thread nD τ).loc main_arg3)) := by
  show StableHlo.after hostOps0 (W0 m ρ c) (Proc.devRef .tc main_v31) = _
  dsimp only [hostOps0]
  after_results
  open Cert.ReferenceIdeal.Read in
  unfold val_main_v29 val_main_v28 val_main_v21 val_main_v27 val_main_v26 val_main_v25 val_main_v24 val_main_v23 val_main_v22 val_main_v20 val_main_v19 val_main_v18 val_main_v17 val_main_v16 val_main_v15 val_main_c_3 val_main_c_4 val_main_c_5 val_main_c_6
  rfl

theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hP : ∀ (r : Fin 8192) (u : Fin 1), ((Cert.KernelIdeal.Hand.dat0 (F := Ideal) (Cert.KernelIdeal.Hand.V1 m ρ) c).arrAt 3 Cert.KernelIdeal.cfg0.N : Cert.KernelIdeal.S8192x1.Idx → EReal) (ix2 r u)
      = rowsum (Cert.KernelIdeal.Hand.V1 m ρ c Cert.KernelIdeal.main_v30) (Cert.KernelIdeal.Hand.V1 m ρ c Cert.KernelIdeal.main_v30) r)
    (hN : ∀ (r : Fin 8192) (u : Fin 1), ((Cert.KernelIdeal.Hand.dat0 (F := Ideal) (Cert.KernelIdeal.Hand.V1 m ρ) c).arrAt 4 Cert.KernelIdeal.cfg0.N : Cert.KernelIdeal.S8192x1.Idx → EReal) (ix2 r u)
      = rowsum (Cert.KernelIdeal.Hand.V1 m ρ c Cert.KernelIdeal.main_v30) (Cert.KernelIdeal.Hand.V1 m ρ c Cert.KernelIdeal.main_v31) r) :
    Cert.KernelIdeal.Hand.W3 (F := Ideal) m ρ c (Proc.devRef .tc Cert.KernelIdeal.main_v40) = Cert.ReferenceIdeal.Value.res_main_v45 m' c := by
  rw [Cert.ReferenceIdeal.Read.val_main_v45_eq, h0, h1, h2, h3, ref_tail, ref_col0, ref_col1,
    kernel_tail, kernel_col0 m ρ c _ _ hP, kernel_col1 m ρ c _ _ hN, kernel_P, kernel_N]

end Cert.Proof.Bridge

end
-- ==== Proof.lean ====
/-
  The pairwise contrast loss: two stacks of 8192 gathered feature rows, the similarity tables exp(20 · ⟨·,·⟩) of the
  first stack against itself and against the second, their row sums P and N, and the mean of −log(P / (N + P)).

  The kernel's program computes the row sums tile by tile — for each tile of 512 query rows, four tiles of 2048 keys,
  the partial row sums carried in two scratch columns from one key tile to the next — and the reference computes the
  whole tables at once.  Over the extended reals a sum of 8192 terms is the sum of its four blocks of 2048, whatever the
  grouping, so the two programs end with the same number; rounding the rows to bf16 is the identity there.

  The three frames: both kernel programs run by the launch of their one region between two stretches of host
  operations, the query tiles and the resident keys sharing one array; the reference by its operations one after the other.
  The ideal pass rewrote nothing, so the idealization claim is trivial.
-/
import proofs.«421594_j68152541053488_3_alg».proof.Defs
import proofs.«421594_j68152541053488_3_alg».proof.Proof.Gen.Kernel
import proofs.«421594_j68152541053488_3_alg».proof.Proof.Gen.KernelIdeal
import proofs.«421594_j68152541053488_3_alg».proof.Proof.Gen.ReferenceIdeal
import proofs.«421594_j68152541053488_3_alg».proof.Proof.Gen.Pre_finite_inputs
import proofs.«421594_j68152541053488_3_alg».proof.Proof.Gen.ReferenceIdeal.Run
import proofs.«421594_j68152541053488_3_alg».proof.Proof.Kernel.Run
import proofs.«421594_j68152541053488_3_alg».proof.Proof.KernelIdeal.Run
import proofs.«421594_j68152541053488_3_alg».proof.Proof.KernelValue
import proofs.«421594_j68152541053488_3_alg».proof.Proof.Bridge

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories that agree on the arguments, with the same loss: the kernel program's last buffer
    is the reference's term of the arguments. -/
theorem algebraic : Cert.algebraic_KernelIdeal_ReferenceIdeal := by
  intro m ρ m' ρ' _ hagree
  refine ⟨fun c => Cert.ReferenceIdeal.Value.res_main_v45 m' c, ?_, Cert.ReferenceIdeal.Value.run (F := Ideal) m' ρ'⟩
  refine (θ_run Cert.KernelIdeal.defs _ _).mono (fun _ h c => ⟨(h c).1.trans ?_, (h c).2⟩)
    (Cert.KernelIdeal.Hand.run_result (F := Ideal) m ρ)
  exact Cert.Proof.Bridge.result_eq m ρ m' c (hagree c).1 (hagree c).2.1 (hagree c).2.2.1 (hagree c).2.2.2
    (Cert.KernelIdeal.HandValue.final_out0 (Cert.KernelIdeal.Hand.V1 m ρ) c)
    (Cert.KernelIdeal.HandValue.final_out1 (Cert.KernelIdeal.Hand.V1 m ρ) c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
